-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S256x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩
abbrev S128x40 : Shape := ⟨2, ![128, 40]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 45
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S128x40, .f32⟩
  | .hbm, ⟨43, _⟩ => ⟨S128x40, .f32⟩
  | .hbm, ⟨44, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S256x40_S128x40_0_0 : S256x40.Slices ![0, 0] S128x40
  slices_S256x40_S128x40_128_0 : S256x40.Slices ![128, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S40.size a ≤ S40.size a
  hwx2_4 : ∀ i : grid2.Coords, EltTy.bits .f32 = 32 ∨ (Rect.block (s := S40) S40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x256 : Shape := ⟨2, ![100000, 256]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x256, .f32⟩
  | .hbm, ⟨59, _⟩ => ⟨S100000x40, .f32⟩
  | .hbm, ⟨60, _⟩ => ⟨S1x40, .f32⟩
  | .hbm, ⟨61, _⟩ => ⟨S100000x40, .f32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S100000x40, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S100000x40, .f32⟩
  | .hbm, ⟨77, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_call2_cst_0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_cst_1 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x40_S100000x40_1_0_0_1_n_n_wf : DotDims.WF S100000x256 S256x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.Spec.lean ====
/-
  The mathematics of the two programs, as functions on the extended reals.

  A graph-convolution layer takes node features `x` and aggregated neighbour features `a` (both [n, 128]) and
  returns, row by row, `relu (a · W_rel + x · W_root + b)`: entry (r, q) depends on row r of `x` and of `a` only.
  The read-out takes the two layers' outputs, multiplies each by its half of the final weight matrix, adds the bias,
  and applies `log_softmax` along each row of 40 logits: `z - max z - log (∑ exp (z - max z))`.
  Both are stated for any number of rows `n`, so that the same function describes a block of rows and the whole array.
-/
import Idealize.ShloMosaic.PureOps.Ideal
import Idealize.ShloMosaic.Lib.ValueIdx

noncomputable section

namespace Cert.Spec

open Idealize.ShloMosaic Idealize.ShloMosaic.ValueIdx

/-- One row of a graph-convolution layer: from row `ar` of the aggregated features and row `xr` of the node features,
    entry `q` of `relu (ar · W_rel + xr · W_root + b)`, the two products added first and the bias last. -/
def layerRow (xr ar : Fin 128 → EReal) (Wrel : (⟨2, ![128, 128]⟩ : Shape).Idx → EReal) (b : (⟨1, ![128]⟩ : Shape).Idx → EReal)
    (Wroot : (⟨2, ![128, 128]⟩ : Shape).Idx → EReal) (q : Fin 128) : EReal :=
  max ((∑ k : Fin 128, ar k * Wrel (ix2 k q) + ∑ k : Fin 128, xr k * Wroot (ix2 k q)) + b (ix1 q)) 0

/-- The layer on an array of `n` rows: row `r` of the result is `layerRow` of rows `r` of `x` and `a`. -/
def layer {n : ℕ} (x a : (⟨2, ![n, 128]⟩ : Shape).Idx → EReal) (Wrel : (⟨2, ![128, 128]⟩ : Shape).Idx → EReal)
    (b : (⟨1, ![128]⟩ : Shape).Idx → EReal) (Wroot : (⟨2, ![128, 128]⟩ : Shape).Idx → EReal) :
    (⟨2, ![n, 128]⟩ : Shape).Idx → EReal :=
  fun i => layerRow (fun k => x (ix2 (i 0) k)) (fun k => a (ix2 (i 0) k)) Wrel b Wroot (i 1)

/-- One row of logits: row `r1` of the first layer's output against the upper half `Wa` of the read-out weights plus row
    `r2` of the second layer's against the lower half `Wb`, plus the bias. -/
def logitsRow (r1 r2 : Fin 128 → EReal) (Wa Wb : (⟨2, ![128, 40]⟩ : Shape).Idx → EReal) (b : (⟨1, ![40]⟩ : Shape).Idx → EReal)
    (q : Fin 40) : EReal :=
  (∑ k : Fin 128, r1 k * Wa (ix2 k q) + ∑ k : Fin 128, r2 k * Wb (ix2 k q)) + b (ix1 q)

/-- `log_softmax` of one row of 40 values, shifted by the row's maximum (the fold of `max` from `-∞`). -/
def logSoftmaxRow (z : Fin 40 → EReal) (q : Fin 40) : EReal :=
  (z q - (Finset.univ : Finset (Fin 40)).fold max (Ideal.ofBits .f32 0xFF800000#32) z)
    - Ideal.log (∑ k : Fin 40, Ideal.exp (z k - (Finset.univ : Finset (Fin 40)).fold max (Ideal.ofBits .f32 0xFF800000#32) z))

/-- The read-out on arrays of `n` rows. -/
def readout {n : ℕ} (x1 x2 : (⟨2, ![n, 128]⟩ : Shape).Idx → EReal) (Wa Wb : (⟨2, ![128, 40]⟩ : Shape).Idx → EReal)
    (b : (⟨1, ![40]⟩ : Shape).Idx → EReal) : (⟨2, ![n, 40]⟩ : Shape).Idx → EReal :=
  fun i => logSoftmaxRow (fun q => logitsRow (fun k => x1 (ix2 (i 0) k)) (fun k => x2 (ix2 (i 0) k)) Wa Wb b q) (i 1)

/-- Reading a layer at explicit coordinates. -/
theorem layer_ix2 {n : ℕ} (x a : (⟨2, ![n, 128]⟩ : Shape).Idx → EReal) (Wrel : (⟨2, ![128, 128]⟩ : Shape).Idx → EReal)
    (b : (⟨1, ![128]⟩ : Shape).Idx → EReal) (Wroot : (⟨2, ![128, 128]⟩ : Shape).Idx → EReal) (r : Fin n) (q : Fin 128) :
    layer x a Wrel b Wroot (ix2 r q) = layerRow (fun k => x (ix2 r k)) (fun k => a (ix2 r k)) Wrel b Wroot q := rfl

/-- Reading the read-out at explicit coordinates. -/
theorem readout_ix2 {n : ℕ} (x1 x2 : (⟨2, ![n, 128]⟩ : Shape).Idx → EReal) (Wa Wb : (⟨2, ![128, 40]⟩ : Shape).Idx → EReal)
    (b : (⟨1, ![40]⟩ : Shape).Idx → EReal) (r : Fin n) (q : Fin 40) :
    readout x1 x2 Wa Wb b (ix2 r q)
      = logSoftmaxRow (fun q => logitsRow (fun k => x1 (ix2 r k)) (fun k => x2 (ix2 r k)) Wa Wb b q) q := rfl

/-- A block of `B` consecutive rows of a layer's result, starting at row `o`, is the layer of the same blocks of rows of
    `x` and `a`: the layer works row by row. -/
theorem layer_rows {n B : ℕ} (o : ℕ) (X A : (⟨2, ![n, 128]⟩ : Shape).Idx → EReal) (xb ab : (⟨2, ![B, 128]⟩ : Shape).Idx → EReal)
    (Wrel : (⟨2, ![128, 128]⟩ : Shape).Idx → EReal) (b : (⟨1, ![128]⟩ : Shape).Idx → EReal)
    (Wroot : (⟨2, ![128, 128]⟩ : Shape).Idx → EReal)
    (hx : ∀ (p : Fin B) (R : Fin n), R.val = o + p.val → ∀ k : Fin 128, xb (ix2 p k) = X (ix2 R k))
    (ha : ∀ (p : Fin B) (R : Fin n), R.val = o + p.val → ∀ k : Fin 128, ab (ix2 p k) = A (ix2 R k))
    (p : Fin B) (R : Fin n) (hR : R.val = o + p.val) (q : Fin 128) :
    layer xb ab Wrel b Wroot (ix2 p q) = layer X A Wrel b Wroot (ix2 R q) := by
  rw [layer_ix2, layer_ix2]
  have e1 : (fun k => xb (ix2 p k)) = fun k => X (ix2 R k) := funext fun k => hx p R hR k
  have e2 : (fun k => ab (ix2 p k)) = fun k => A (ix2 R k) := funext fun k => ha p R hR k
  rw [e1, e2]

/-- The same for the read-out. -/
theorem readout_rows {n B : ℕ} (o : ℕ) (X1 X2 : (⟨2, ![n, 128]⟩ : Shape).Idx → EReal) (xb1 xb2 : (⟨2, ![B, 128]⟩ : Shape).Idx → EReal)
    (Wa Wb : (⟨2, ![128, 40]⟩ : Shape).Idx → EReal) (b : (⟨1, ![40]⟩ : Shape).Idx → EReal)
    (h1 : ∀ (p : Fin B) (R : Fin n), R.val = o + p.val → ∀ k : Fin 128, xb1 (ix2 p k) = X1 (ix2 R k))
    (h2 : ∀ (p : Fin B) (R : Fin n), R.val = o + p.val → ∀ k : Fin 128, xb2 (ix2 p k) = X2 (ix2 R k))
    (p : Fin B) (R : Fin n) (hR : R.val = o + p.val) (q : Fin 40) :
    readout xb1 xb2 Wa Wb b (ix2 p q) = readout X1 X2 Wa Wb b (ix2 R q) := by
  rw [readout_ix2, readout_ix2]
  have e1 : (fun k => xb1 (ix2 p k)) = fun k => X1 (ix2 R k) := funext fun k => h1 p R hR k
  have e2 : (fun k => xb2 (ix2 p k)) = fun k => X2 (ix2 R k) := funext fun k => h2 p R hR k
  rw [e1, e2]

end Cert.Spec

end
-- ==== Proof.PayLayer.lean ====
/-
  What a layer kernel's body computes from its loaded blocks, at the extended reals: a block of 5000 rows of
  `relu (a · W_rel + x · W_root + b)`. The two format changes to bf16 are the identity there, each `tpu.matmul` into
  the zero accumulator is the plain sum of products over the contracted axis, and the bias row is broadcast down the rows.
-/
import proofs.«163946_j23699629539722_1_alg».proof.Proof.Gen.KernelIdeal.Skeleton
import proofs.«163946_j23699629539722_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The left operand's index of the layer product keeps the output's row. -/
private theorem lhs_dot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
private theorem lhs_dot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contraction coordinate. -/
private theorem rhs_dot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's index keeps the output's column. -/
private theorem rhs_dot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero accumulator, read at (p, q): the sum over k of l (p, k) · r (k, q). -/
private theorem matmul_ix2 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row, cast to [1,128] and broadcast down the 5000 rows, read at (p, q): b q. -/
private theorem bias_ix2 (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply (shapeCast S1x128 b shapeCasts_S128_S1x128) broadcasts_S1x128_S5000x128 p q).trans
    (shapeCast_a_1a_apply b shapeCasts_S128_S1x128 0 q)

/-- The body common to both layer kernels, read at (p, q), is the layer function there. -/
private theorem body_ix2 (x a : FVec Ideal S5000x128 .f32) (W W' : FVec Ideal S128x128 .f32) (b : FVec Ideal S128 .f32)
    (p : Fin 5000) (q : Fin 128) :
    maximumf
        (addf
          (addf
            (matmul dot_S5000x128_S128x128_S5000x128_1_0_0_1_n_n none (truncf .bf16 a bitsLt_bf16_f32) (truncf .bf16 W bitsLt_bf16_f32)
              (constant (F := Ideal) S5000x128 .f32 0x00000000#32))
            (matmul dot_S5000x128_S128x128_S5000x128_1_0_0_1_n_n none (truncf .bf16 x bitsLt_bf16_f32) (truncf .bf16 W' bitsLt_bf16_f32)
              (constant (F := Ideal) S5000x128 .f32 0x00000000#32)))
          (broadcastTo S5000x128 (shapeCast S1x128 b shapeCasts_S128_S1x128) broadcasts_S1x128_S5000x128))
        (broadcast S5000x128 (Scalar.ofBits (F := Ideal) .f32 0x00000000#32)) (ix2 p q)
      = Cert.Spec.layer x a W b W' (ix2 p q) := by
  rw [Cert.Spec.layer_ix2]
  unfold Cert.Spec.layerRow
  exact congrArg₂ max
    (congrArg₂ (· + ·)
      (congrArg₂ (· + ·) (matmul_ix2 (truncf .bf16 a bitsLt_bf16_f32) (truncf .bf16 W bitsLt_bf16_f32) p q)
        (matmul_ix2 (truncf .bf16 x bitsLt_bf16_f32) (truncf .bf16 W' bitsLt_bf16_f32) p q))
      (bias_ix2 b p q))
    Ideal.ofBits_zero_f32

/-- The first layer's payload is the layer function of its five loaded blocks. -/
theorem pay0_eq (x a : Vec Ideal S5000x128 .f32) (W W' : Vec Ideal S128x128 .f32) (b : Vec Ideal S128 .f32) :
    k0_pay1 (F := Ideal) x a W W' b = Cert.Spec.layer x a W b W' := by
  funext i
  obtain ⟨p, q, rfl⟩ : ∃ (p : Fin 5000) (q : Fin 128), i = ix2 p q := ⟨i 0, i 1, eq_ix2 i⟩
  have ha : shapeCast S5000x128 a shapeCasts_S5000x128_S5000x128 = a := shapeCast_self a _
  unfold k0_pay1
  refine (body_ix2 x (shapeCast S5000x128 a shapeCasts_S5000x128_S5000x128) W W' b p q).trans ?_
  rw [ha]

/-- The second layer's payload likewise (its loads pass through an identity shape cast first). -/
theorem pay1_eq (x a : Vec Ideal S5000x128 .f32) (W W' : Vec Ideal S128x128 .f32) (b : Vec Ideal S128 .f32) :
    k1_pay1 (F := Ideal) x a W W' b = Cert.Spec.layer x a W b W' := by
  funext i
  obtain ⟨p, q, rfl⟩ : ∃ (p : Fin 5000) (q : Fin 128), i = ix2 p q := ⟨i 0, i 1, eq_ix2 i⟩
  have hx : shapeCast S5000x128 x shapeCasts_S5000x128_S5000x128 = x := shapeCast_self x _
  have ha : shapeCast S5000x128 a shapeCasts_S5000x128_S5000x128 = a := shapeCast_self a _
  unfold k1_pay1
  refine (body_ix2 (shapeCast S5000x128 x shapeCasts_S5000x128_S5000x128)
    (shapeCast S5000x128 a shapeCasts_S5000x128_S5000x128) W W' b p q).trans ?_
  rw [hx, ha]

end Cert.KernelIdeal.Pay

end
-- ==== Proof.Blocks0.lean ====
/-
  Region 0 of the kernel's program, read as a value: after the twenty grid points the output array holds the
  first graph-convolution layer of the arrays the region was entered with. Point t reads rows 5000 t … 5000 t + 4999 of the
  node features and of the aggregate, all of the two weight matrices and the bias, and writes the same rows of the
  output; the layer works row by row, so what point t writes back is block t of the layer of the whole arrays, and the
  twenty blocks tile the 100000 rows.
-/
import proofs.«163946_j23699629539722_1_alg».proof.Proof.Gen.KernelIdeal.Frame
import proofs.«163946_j23699629539722_1_alg».proof.Proof.PayLayer
import proofs.«163946_j23699629539722_1_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The arrays as the region finds them, at their literal types. -/
abbrev xs (c : Dev nD) : S100000x128.Idx → EReal := V c main_arg0
abbrev ag (c : Dev nD) : S100000x128.Idx → EReal := V c main_v13
abbrev wrel (c : Dev nD) : S128x128.Idx → EReal := V c main_arg2
abbrev bias (c : Dev nD) : S128.Idx → EReal := V c main_arg3
abbrev wroot (c : Dev nD) : S128x128.Idx → EReal := V c main_arg4

/-- The printed index maps over the grid: the row-blocked windows sit at block row `t`, the others at block 0. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000 t + p` of the array: where an element of a row-blocked window's block sits. -/
theorem emb_rows0 (t : Fin cfg0.N) (p : Fin 5000) (k : Fin 128) (R : Fin 100000) (hR : R.val = 5000 * t.val + p.val) :
    ((cfg0.win 0).blk t).view.emb (ix2 p k) = ix2 R k := by
  obtain ⟨e0, e1, -⟩ := idx t
  funext a; apply Fin.ext
  match a with
  | ⟨0, _⟩ => show win0_0.index t (0 : Fin 2) * 5000 + 1 * p.val = R.val; omega
  | ⟨1, _⟩ => show win0_0.index t (1 : Fin 2) * 128 + 1 * k.val = k.val; omega

theorem emb_rows1 (t : Fin cfg0.N) (p : Fin 5000) (k : Fin 128) (R : Fin 100000) (hR : R.val = 5000 * t.val + p.val) :
    ((cfg0.win 1).blk t).view.emb (ix2 p k) = ix2 R k := by
  obtain ⟨-, -, e0, e1, -⟩ := idx t
  funext a; apply Fin.ext
  match a with
  | ⟨0, _⟩ => show win0_1.index t (0 : Fin 2) * 5000 + 1 * p.val = R.val; omega
  | ⟨1, _⟩ => show win0_1.index t (1 : Fin 2) * 128 + 1 * k.val = k.val; omega

theorem emb_rows5 (t : Fin cfg0.N) (p : Fin 5000) (k : Fin 128) (R : Fin 100000) (hR : R.val = 5000 * t.val + p.val) :
    ((cfg0.win 5).blk t).view.emb (ix2 p k) = ix2 R k := by
  obtain ⟨-, -, -, -, -, -, -, -, -, e0, e1⟩ := idx t
  funext a; apply Fin.ext
  match a with
  | ⟨0, _⟩ => show win0_5.index t (0 : Fin 2) * 5000 + 1 * p.val = R.val; omega
  | ⟨1, _⟩ => show win0_5.index t (1 : Fin 2) * 128 + 1 * k.val = k.val; omega

/-- The whole-array windows' one block is the array. -/
theorem blk2 (c : Dev nD) (t : Fin cfg0.N) : iblk0 V c 2 t = wrel V c := by
  obtain ⟨-, -, -, -, e0, e1, -⟩ := idx t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : iblk0 V c 3 t = bias V c := by
  obtain ⟨-, -, -, -, -, -, e0, -⟩ := idx t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; omega

theorem blk4 (c : Dev nD) (t : Fin cfg0.N) : iblk0 V c 4 t = wroot V c := by
  obtain ⟨-, -, -, -, -, -, -, e0, e1, -⟩ := idx t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- WHAT POINT `t` WRITES BACK is block `t` of the layer of the arrays as the region finds them. -/
theorem flushed_eq (c : Dev nD) (t : Fin cfg0.N) :
    (dat0 V c).flushed 5 t = ((cfg0.win 5).blk t).view.read (Elt Ideal)
      (Cert.Spec.layer (xs V c) (ag V c) (wrel V c) (bias V c) (wroot V c)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [pay0_eq, blk2, blk3, blk4]
  funext j
  obtain ⟨p, q, rfl⟩ : ∃ (p : Fin 5000) (q : Fin 128), j = ix2 p q := ⟨j 0, j 1, eq_ix2 j⟩
  have hN : t.val < 20 := by have h := t.isLt; have e : cfg0.N = 20 := N_0; omega
  have hR : 5000 * t.val + p.val < 100000 := by have := p.isLt; omega
  show Cert.Spec.layer (iblk0 V c 0 t) (iblk0 V c 1 t) (wrel V c) (bias V c) (wroot V c) (ix2 p q)
    = Cert.Spec.layer (xs V c) (ag V c) (wrel V c) (bias V c) (wroot V c) (((cfg0.win 5).blk t).view.emb (ix2 p q))
  rw [emb_rows5 t p q ⟨_, hR⟩ rfl]
  refine Cert.Spec.layer_rows (5000 * t.val) (xs V c) (ag V c) (iblk0 V c 0 t) (iblk0 V c 1 t) (wrel V c) (bias V c) (wroot V c)
    (fun p' R hR' k => ?_) (fun p' R hR' k => ?_) p ⟨_, hR⟩ rfl q
  · show V c main_arg0 (((cfg0.win 0).blk t).view.emb (ix2 p' k)) = V c main_arg0 (ix2 R k)
    rw [emb_rows0 t p' k R hR']
  · show V c main_v13 (((cfg0.win 1).blk t).view.emb (ix2 p' k)) = V c main_v13 (ix2 R k)
    rw [emb_rows1 t p' k R hR']

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- Every row lies in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨-, -, -, -, -, -, -, -, -, e0, e1⟩ := idx ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- THE OUTPUT ARRAY after the region: the layer of the arrays it was entered with. -/
theorem final (c : Dev nD) :
    (dat0 V c).arrAt 5 cfg0.N = Cert.Spec.layer (xs V c) (ag V c) (wrel V c) (bias V c) (wroot V c) :=
  (dat0 V c).arrAt_eq_of_cover 5 _ (fun t _ => flushed_eq V c t) cover

end Cert.KernelIdeal.Blocks0

end
-- ==== Proof.Blocks1.lean ====
/-
  Region 1 of the kernel's program, read as a value: after the twenty grid points the output array holds the
  second graph-convolution layer of the arrays the region was entered with. Point t reads rows 5000 t … 5000 t + 4999 of the
  node features and of the aggregate, all of the two weight matrices and the bias, and writes the same rows of the
  output; the layer works row by row, so what point t writes back is block t of the layer of the whole arrays, and the
  twenty blocks tile the 100000 rows.
-/
import proofs.«163946_j23699629539722_1_alg».proof.Proof.Gen.KernelIdeal.Frame
import proofs.«163946_j23699629539722_1_alg».proof.Proof.PayLayer
import proofs.«163946_j23699629539722_1_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The arrays as the region finds them, at their literal types. -/
abbrev xs (c : Dev nD) : S100000x128.Idx → EReal := V c main_v14
abbrev ag (c : Dev nD) : S100000x128.Idx → EReal := V c main_v24
abbrev wrel (c : Dev nD) : S128x128.Idx → EReal := V c main_arg5
abbrev bias (c : Dev nD) : S128.Idx → EReal := V c main_arg6
abbrev wroot (c : Dev nD) : S128x128.Idx → EReal := V c main_arg7

/-- The printed index maps over the grid: the row-blocked windows sit at block row `t`, the others at block 0. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000 t + p` of the array: where an element of a row-blocked window's block sits. -/
theorem emb_rowsA (t : Fin cfg1.N) (p : Fin 5000) (k : Fin 128) (R : Fin 100000) (hR : R.val = 5000 * t.val + p.val) :
    ((cfg1.win 0).blk t).view.emb (ix2 p k) = ix2 R k := by
  obtain ⟨e0, e1, -⟩ := idx t
  funext a; apply Fin.ext
  match a with
  | ⟨0, _⟩ => show win1_0.index t (0 : Fin 2) * 5000 + 1 * p.val = R.val; omega
  | ⟨1, _⟩ => show win1_0.index t (1 : Fin 2) * 128 + 1 * k.val = k.val; omega

theorem emb_rowsB (t : Fin cfg1.N) (p : Fin 5000) (k : Fin 128) (R : Fin 100000) (hR : R.val = 5000 * t.val + p.val) :
    ((cfg1.win 1).blk t).view.emb (ix2 p k) = ix2 R k := by
  obtain ⟨-, -, e0, e1, -⟩ := idx t
  funext a; apply Fin.ext
  match a with
  | ⟨0, _⟩ => show win1_1.index t (0 : Fin 2) * 5000 + 1 * p.val = R.val; omega
  | ⟨1, _⟩ => show win1_1.index t (1 : Fin 2) * 128 + 1 * k.val = k.val; omega

theorem emb_rows5 (t : Fin cfg1.N) (p : Fin 5000) (k : Fin 128) (R : Fin 100000) (hR : R.val = 5000 * t.val + p.val) :
    ((cfg1.win 5).blk t).view.emb (ix2 p k) = ix2 R k := by
  obtain ⟨-, -, -, -, -, -, -, -, -, e0, e1⟩ := idx t
  funext a; apply Fin.ext
  match a with
  | ⟨0, _⟩ => show win1_5.index t (0 : Fin 2) * 5000 + 1 * p.val = R.val; omega
  | ⟨1, _⟩ => show win1_5.index t (1 : Fin 2) * 128 + 1 * k.val = k.val; omega

/-- The whole-array windows' one block is the array. -/
theorem blk2 (c : Dev nD) (t : Fin cfg1.N) : iblk1 V c 2 t = wrel V c := by
  obtain ⟨-, -, -, -, e0, e1, -⟩ := idx t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk3 (c : Dev nD) (t : Fin cfg1.N) : iblk1 V c 3 t = bias V c := by
  obtain ⟨-, -, -, -, -, -, e0, -⟩ := idx t
  funext y
  show V c main_arg6 (((cfg1.win 3).blk t).view.emb y) = V c main_arg6 y
  refine congrArg (V c main_arg6) (funext fun a => Fin.ext ?_)
  match a with
  | ⟨0, _⟩ => show win1_3.index t (0 : Fin 1) * 128 + 1 * (y 0).val = (y 0).val; omega

theorem blk4 (c : Dev nD) (t : Fin cfg1.N) : iblk1 V c 4 t = wroot V c := by
  obtain ⟨-, -, -, -, -, -, -, e0, e1, -⟩ := idx t
  funext y
  show V c main_arg7 (((cfg1.win 4).blk t).view.emb y) = V c main_arg7 y
  refine congrArg (V c main_arg7) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- WHAT POINT `t` WRITES BACK is block `t` of the layer of the arrays as the region finds them. -/
theorem flushed_eq (c : Dev nD) (t : Fin cfg1.N) :
    (dat1 V c).flushed 5 t = ((cfg1.win 5).blk t).view.read (Elt Ideal)
      (Cert.Spec.layer (xs V c) (ag V c) (wrel V c) (bias V c) (wroot V c)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [pay1_eq, blk2, blk3, blk4]
  funext j
  obtain ⟨p, q, rfl⟩ : ∃ (p : Fin 5000) (q : Fin 128), j = ix2 p q := ⟨j 0, j 1, eq_ix2 j⟩
  have hN : t.val < 20 := by have h := t.isLt; have e : cfg1.N = 20 := N_1; omega
  have hR : 5000 * t.val + p.val < 100000 := by have := p.isLt; omega
  show Cert.Spec.layer (iblk1 V c 0 t) (iblk1 V c 1 t) (wrel V c) (bias V c) (wroot V c) (ix2 p q)
    = Cert.Spec.layer (xs V c) (ag V c) (wrel V c) (bias V c) (wroot V c) (((cfg1.win 5).blk t).view.emb (ix2 p q))
  rw [emb_rows5 t p q ⟨_, hR⟩ rfl]
  refine Cert.Spec.layer_rows (5000 * t.val) (xs V c) (ag V c) (iblk1 V c 0 t) (iblk1 V c 1 t) (wrel V c) (bias V c) (wroot V c)
    (fun p' R hR' k => ?_) (fun p' R hR' k => ?_) p ⟨_, hR⟩ rfl q
  · show V c main_v14 (((cfg1.win 0).blk t).view.emb (ix2 p' k)) = V c main_v14 (ix2 R k)
    rw [emb_rowsA t p' k R hR']
  · show V c main_v24 (((cfg1.win 1).blk t).view.emb (ix2 p' k)) = V c main_v24 (ix2 R k)
    rw [emb_rowsB t p' k R hR']

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every row lies in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, e0, e1⟩ := idx ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE OUTPUT ARRAY after the region: the layer of the arrays it was entered with. -/
theorem final (c : Dev nD) :
    (dat1 V c).arrAt 5 cfg1.N = Cert.Spec.layer (xs V c) (ag V c) (wrel V c) (bias V c) (wroot V c) :=
  (dat1 V c).arrAt_eq_of_cover 5 _ (fun t _ => flushed_eq V c t) cover

end Cert.KernelIdeal.Blocks1

end
-- ==== Proof.PayFinal.lean ====
/-
  What the read-out kernel's body computes from its loaded blocks, at the extended reals: a block of 5000 rows of
  `log_softmax (x1 · Wa + x2 · Wb + b)` along each row of 40 logits. The row maximum is a `multi_reduction <maximumf>`
  from `-∞`, the normaliser a `multi_reduction <add>` of the exponentials; both are re-broadcast along the row.
-/
import proofs.«163946_j23699629539722_1_alg».proof.Proof.Gen.KernelIdeal.Skeleton
import proofs.«163946_j23699629539722_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The logits block. -/
private def logits (x1 x2 : Vec Ideal S5000x128 .f32) (Wa Wb : Vec Ideal S128x40 .f32) (b : Vec Ideal S40 .f32) :
    FVec Ideal S5000x40 .f32 :=
  addf
    (addf
      (matmul dot_S5000x128_S128x40_S5000x40_1_0_0_1_n_n none
        (truncf .bf16 (shapeCast S5000x128 x1 shapeCasts_S5000x128_S5000x128) bitsLt_bf16_f32)
        (truncf .bf16 (shapeCast S128x40 Wa shapeCasts_S128x40_S128x40) bitsLt_bf16_f32)
        (constant S5000x40 .f32 0x00000000#32))
      (matmul dot_S5000x128_S128x40_S5000x40_1_0_0_1_n_n none
        (truncf .bf16 (shapeCast S5000x128 x2 shapeCasts_S5000x128_S5000x128) bitsLt_bf16_f32)
        (truncf .bf16 (shapeCast S128x40 Wb shapeCasts_S128x40_S128x40) bitsLt_bf16_f32)
        (constant S5000x40 .f32 0x00000000#32)))
    (broadcastTo S5000x40 (shapeCast S1x40 b shapeCasts_S40_S1x40) broadcasts_S1x40_S5000x40)

/-- A column of row values laid along each row. -/
private def alongRow (c : FVec Ideal S5000 .f32) : FVec Ideal S5000x40 .f32 :=
  broadcastTo S5000x40 (shapeCast S5000x1 c shapeCasts_S5000_S5000x1) broadcasts_S5000x1_S5000x40

private def rowMax (z : FVec Ideal S5000x40 .f32) : FVec Ideal S5000 .f32 :=
  multiReduction .maximumf [1] S5000 z 0xFF800000#32 reduces_S5000x40_S5000 (.inl rfl) rfl

private def rowSum (z : FVec Ideal S5000x40 .f32) : FVec Ideal S5000 .f32 :=
  multiReduction .add [1] S5000 z 0x00000000#32 reduces_S5000x40_S5000 (.inl rfl) rfl

private def tail (z : FVec Ideal S5000x40 .f32) : FVec Ideal S5000x40 .f32 :=
  subf (subf z (alongRow (rowMax z)))
    (broadcastTo S5000x40 (log (shapeCast S5000x1 (rowSum (exp (subf z (alongRow (rowMax z))))) shapeCasts_S5000_S5000x1))
      broadcasts_S5000x1_S5000x40)

private theorem pay_split (x1 x2 : Vec Ideal S5000x128 .f32) (Wa Wb : Vec Ideal S128x40 .f32) (b : Vec Ideal S40 .f32) :
    k2_pay1 (F := Ideal) x1 x2 Wa Wb b = tail (logits x1 x2 Wa Wb b) := rfl

/-- A column `[5000]` cast to `[5000, 1]` reads, at `(p, u)`, the column at `p`. -/
private theorem shapeCast_col_apply (c : FVec Ideal S5000 .f32) (p : Fin 5000) (u : Fin 1) :
    shapeCast S5000x1 c shapeCasts_S5000_S5000x1 (ix2 p u) = c (ix1 p) :=
  shapeCast_apply c shapeCasts_S5000_S5000x1 _ _ (by
    have hu : u.val = 0 := by omega
    rw [Shape.rowMajor_val_two, Shape.rowMajor_val_one]
    show p.val = p.val * 1 + u.val
    rw [hu, Nat.mul_one, Nat.add_zero])

/-- A `[5000, 1]` array broadcast to `[5000, 40]` reads, at `(p, q)`, its one column at `p`. -/
private theorem broadcastTo_col_apply (v : FVec Ideal S5000x1 .f32) (p : Fin 5000) (q : Fin 40) :
    broadcastTo S5000x40 v broadcasts_S5000x1_S5000x40 (ix2 p q) = v (ix2 p (0 : Fin 1)) := by
  refine broadcastTo_apply v broadcasts_S5000x1_S5000x40 (ix2 p q) (ix2 p (0 : Fin 1)) fun ax => ?_
  match ax with
  | ⟨0, _⟩ =>
    show p.val = if (5000 : Nat) = 1 then 0 else p.val
    rw [if_neg (by decide)]
  | ⟨1, _⟩ => rfl

private theorem alongRow_apply (c : FVec Ideal S5000 .f32) (p : Fin 5000) (q : Fin 40) :
    alongRow c (ix2 p q) = c (ix1 p) :=
  (broadcastTo_col_apply _ p q).trans (shapeCast_col_apply c p 0)

/-- The reduced index `p` with the coordinate `k` put back on axis 1 is `(p, k)`. -/
private theorem lift_ix1 (p : Fin 5000) (k : Fin 40) :
    reduces_S5000x40_S5000.lift (ix1 p) k = ix2 p k :=
  funext fun a => Fin.ext (by
    match a with
    | ⟨0, _⟩ => rfl
    | ⟨1, _⟩ => rfl)

private theorem rowMax_apply (z : FVec Ideal S5000x40 .f32) (p : Fin 5000) :
    rowMax z (ix1 p)
      = (Finset.univ : Finset (Fin 40)).fold max (Ideal.ofBits .f32 0xFF800000#32) (fun k => z (ix2 p k)) := by
  refine (Ideal.multiReduction_maximumf_single z 0xFF800000#32 reduces_S5000x40_S5000 (.inl rfl) rfl (ix1 p)).trans ?_
  exact congrArg (fun f : Fin 40 → EReal => (Finset.univ : Finset (Fin 40)).fold max (Ideal.ofBits .f32 0xFF800000#32) f)
    (funext fun k => congrArg z (lift_ix1 p k))

private theorem rowSum_apply (z : FVec Ideal S5000x40 .f32) (p : Fin 5000) :
    rowSum z (ix1 p) = ∑ k : Fin 40, z (ix2 p k) := by
  refine (Ideal.multiReduction_add_single z 0x00000000#32 reduces_S5000x40_S5000 (.inl rfl) rfl (ix1 p)).trans ?_
  exact Finset.sum_congr rfl fun k _ => congrArg z (lift_ix1 p k)

/-- The row shifted by its maximum, read at `(p, k)`. -/
private theorem shifted_apply (z : FVec Ideal S5000x40 .f32) (p : Fin 5000) (k : Fin 40) :
    subf z (alongRow (rowMax z)) (ix2 p k)
      = z (ix2 p k) - (Finset.univ : Finset (Fin 40)).fold max (Ideal.ofBits .f32 0xFF800000#32) (fun k => z (ix2 p k)) := by
  show z (ix2 p k) - alongRow (rowMax z) (ix2 p k) = _
  exact congrArg (fun m : EReal => z (ix2 p k) - m) ((alongRow_apply _ p k).trans (rowMax_apply z p))

/-- The logarithm of the row's sum of exponentials, laid along the row, read at `(p, q)`. -/
private theorem normaliser_apply (s : FVec Ideal S5000x40 .f32) (p : Fin 5000) (q : Fin 40) :
    broadcastTo S5000x40 (log (shapeCast S5000x1 (rowSum (exp s)) shapeCasts_S5000_S5000x1)) broadcasts_S5000x1_S5000x40 (ix2 p q)
      = Ideal.log (∑ k : Fin 40, Ideal.exp (s (ix2 p k))) := by
  refine (broadcastTo_col_apply _ p q).trans ?_
  show Ideal.log (shapeCast S5000x1 (rowSum (exp s)) shapeCasts_S5000_S5000x1 (ix2 p (0 : Fin 1))) = _
  exact congrArg Ideal.log ((shapeCast_col_apply _ p 0).trans (rowSum_apply (exp s) p))

private theorem tail_apply (z : FVec Ideal S5000x40 .f32) (p : Fin 5000) (q : Fin 40) :
    tail z (ix2 p q) = Cert.Spec.logSoftmaxRow (fun k => z (ix2 p k)) q := by
  unfold tail Cert.Spec.logSoftmaxRow
  show subf z (alongRow (rowMax z)) (ix2 p q)
      - broadcastTo S5000x40 (log (shapeCast S5000x1 (rowSum (exp (subf z (alongRow (rowMax z))))) shapeCasts_S5000_S5000x1))
          broadcasts_S5000x1_S5000x40 (ix2 p q) = _
  rw [shifted_apply z p q, normaliser_apply (subf z (alongRow (rowMax z))) p q]
  exact congrArg (fun t : EReal => _ - Ideal.log t)
    (Finset.sum_congr rfl fun k _ => congrArg Ideal.exp (shifted_apply z p k))

/-! The operand indices of the product at output index `i` and contraction index `c`, axis by axis. -/

private theorem lhs_pay2_0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
private theorem lhs_pay2_1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c
private theorem rhs_pay2_0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c
private theorem rhs_pay2_1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into the zero splat, read at `(p, q)`: row `p` of the left operand against column `q` of the right. -/
private theorem product_apply (x : FVec Ideal S5000x128 .bf16) (W : FVec Ideal S128x40 .bf16) (p : Fin 5000) (q : Fin 40) :
    matmul dot_S5000x128_S128x40_S5000x40_1_0_0_1_n_n none x W (constant (F := Ideal) S5000x40 .f32 0x00000000#32) (ix2 p q)
      = ∑ k : Fin 128, x (ix2 p k) * W (ix2 k q) := by
  refine (Ideal.matmul_constant_zero_apply dot_S5000x128_S128x40_S5000x40_1_0_0_1_n_n none x W (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs_pay2_0 _ _
    | ⟨1, _⟩ => exact (lhs_pay2_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs_pay2_0 _ _).trans hk
    | ⟨1, _⟩ => exact rhs_pay2_1 _ _)
  rw [el, er]

/-- The bias laid along every row, read at `(p, q)`. -/
private theorem bias_apply (b : Vec Ideal S40 .f32) (p : Fin 5000) (q : Fin 40) :
    broadcastTo S5000x40 (shapeCast S1x40 b shapeCasts_S40_S1x40) broadcasts_S1x40_S5000x40 (ix2 p q) = b (ix1 q) :=
  (broadcastTo_1b_ab_apply _ broadcasts_S1x40_S5000x40 p q).trans (shapeCast_a_1a_apply b shapeCasts_S40_S1x40 0 q)

private theorem logits_apply (x1 x2 : Vec Ideal S5000x128 .f32) (Wa Wb : Vec Ideal S128x40 .f32) (b : Vec Ideal S40 .f32)
    (p : Fin 5000) (q : Fin 40) :
    logits x1 x2 Wa Wb b (ix2 p q)
      = Cert.Spec.logitsRow (fun k => x1 (ix2 p k)) (fun k => x2 (ix2 p k)) Wa Wb b q := by
  unfold logits Cert.Spec.logitsRow
  rw [shapeCast_self x1, shapeCast_self x2, shapeCast_self Wa, shapeCast_self Wb]
  show (matmul dot_S5000x128_S128x40_S5000x40_1_0_0_1_n_n none (truncf .bf16 x1 bitsLt_bf16_f32) (truncf .bf16 Wa bitsLt_bf16_f32)
          (constant (F := Ideal) S5000x40 .f32 0x00000000#32) (ix2 p q)
        + matmul dot_S5000x128_S128x40_S5000x40_1_0_0_1_n_n none (truncf .bf16 x2 bitsLt_bf16_f32) (truncf .bf16 Wb bitsLt_bf16_f32)
          (constant (F := Ideal) S5000x40 .f32 0x00000000#32) (ix2 p q))
      + broadcastTo S5000x40 (shapeCast S1x40 b shapeCasts_S40_S1x40) broadcasts_S1x40_S5000x40 (ix2 p q) = _
  rw [product_apply, product_apply, bias_apply]
  rfl

/-- The read-out payload is the read-out function of its five loaded blocks. -/
theorem pay2_eq (x1 x2 : Vec Ideal S5000x128 .f32) (Wa Wb : Vec Ideal S128x40 .f32) (b : Vec Ideal S40 .f32) :
    k2_pay1 (F := Ideal) x1 x2 Wa Wb b = Cert.Spec.readout x1 x2 Wa Wb b := by
  funext i
  obtain ⟨p, q, rfl⟩ : ∃ (p : Fin 5000) (q : Fin 40), i = ix2 p q := ⟨i 0, i 1, eq_ix2 i⟩
  refine (congrFun (pay_split x1 x2 Wa Wb b) (ix2 p q)).trans ?_
  refine (tail_apply _ p q).trans ?_
  refine Eq.trans ?_ (Cert.Spec.readout_ix2 x1 x2 Wa Wb b p q).symm
  exact congrArg (fun z : Fin 40 → EReal => Cert.Spec.logSoftmaxRow z q)
    (funext fun k => logits_apply x1 x2 Wa Wb b p k)

end Cert.KernelIdeal.Pay

end
-- ==== Proof.Blocks2.lean ====
/-
  Region 2 of the kernel's program, read as a value: after the twenty grid points the output array holds the read-out
  (the logits from the two layers' outputs against the two halves of the weight matrix, plus the bias, then log_softmax
  along each row) of the arrays the region was entered with. Point t reads rows 5000 t … 5000 t + 4999 of the two layers'
  outputs, all of the two weight halves and the bias, and writes the same rows of the [100000, 40] output; the read-out
  works row by row, so what point t writes back is block t of the read-out of the whole arrays, and the blocks tile the rows.
-/
import proofs.«163946_j23699629539722_1_alg».proof.Proof.Gen.KernelIdeal.Frame
import proofs.«163946_j23699629539722_1_alg».proof.Proof.PayFinal
import proofs.«163946_j23699629539722_1_alg».proof.Proof.Spec
import Idealize.ShloMosaic.Lib.Pipeline.Value
import Idealize.ShloMosaic.Lib.ValueIdx

set_option maxRecDepth 16384

noncomputable section

namespace Cert.KernelIdeal.Blocks2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The arrays as the region finds them, at their literal types. -/
abbrev xs (c : Dev nD) : S100000x128.Idx → EReal := V c main_v14
abbrev ag (c : Dev nD) : S100000x128.Idx → EReal := V c main_v25
abbrev wrel (c : Dev nD) : S128x40.Idx → EReal := V c main_v26
abbrev wroot (c : Dev nD) : S128x40.Idx → EReal := V c main_v27
abbrev bias (c : Dev nD) : S40.Idx → EReal := V c main_arg9

/-- The printed index maps over the grid: the row-blocked windows sit at block row `t`, the others at block 0. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of block `t` is row `5000 t + p` of the array: where an element of a row-blocked window's block sits. -/
theorem emb_rows0 (t : Fin cfg2.N) (p : Fin 5000) (k : Fin 128) (R : Fin 100000) (hR : R.val = 5000 * t.val + p.val) :
    ((cfg2.win 0).blk t).view.emb (ix2 p k) = ix2 R k := by
  obtain ⟨e0, e1, -⟩ := idx t
  funext a; apply Fin.ext
  match a with
  | ⟨0, _⟩ => show win2_0.index t (0 : Fin 2) * 5000 + 1 * p.val = R.val; omega
  | ⟨1, _⟩ => show win2_0.index t (1 : Fin 2) * 128 + 1 * k.val = k.val; omega

theorem emb_rows1 (t : Fin cfg2.N) (p : Fin 5000) (k : Fin 128) (R : Fin 100000) (hR : R.val = 5000 * t.val + p.val) :
    ((cfg2.win 1).blk t).view.emb (ix2 p k) = ix2 R k := by
  obtain ⟨-, -, e0, e1, -⟩ := idx t
  funext a; apply Fin.ext
  match a with
  | ⟨0, _⟩ => show win2_1.index t (0 : Fin 2) * 5000 + 1 * p.val = R.val; omega
  | ⟨1, _⟩ => show win2_1.index t (1 : Fin 2) * 128 + 1 * k.val = k.val; omega

theorem emb_rows5 (t : Fin cfg2.N) (p : Fin 5000) (k : Fin 40) (R : Fin 100000) (hR : R.val = 5000 * t.val + p.val) :
    ((cfg2.win 5).blk t).view.emb (ix2 p k) = ix2 R k := by
  obtain ⟨-, -, -, -, -, -, -, -, -, e0, e1⟩ := idx t
  funext a; apply Fin.ext
  match a with
  | ⟨0, _⟩ => show win2_5.index t (0 : Fin 2) * 5000 + 1 * p.val = R.val; omega
  | ⟨1, _⟩ => show win2_5.index t (1 : Fin 2) * 40 + 1 * k.val = k.val; omega

/-- The whole-array windows' one block is the array. -/
theorem blk2 (c : Dev nD) (t : Fin cfg2.N) : iblk2 V c 2 t = wrel V c := by
  obtain ⟨-, -, -, -, e0, e1, -⟩ := idx t
  funext y
  show V c main_v26 (((cfg2.win 2).blk t).view.emb y) = V c main_v26 y
  refine congrArg (V c main_v26) (funext fun a => Fin.ext ?_)
  match a with
  | ⟨0, _⟩ => show win2_2.index t (0 : Fin 2) * 128 + 1 * (y 0).val = (y 0).val; omega
  | ⟨1, _⟩ => show win2_2.index t (1 : Fin 2) * 40 + 1 * (y 1).val = (y 1).val; omega

theorem blk3 (c : Dev nD) (t : Fin cfg2.N) : iblk2 V c 3 t = wroot V c := by
  obtain ⟨-, -, -, -, -, -, e0, e1, -⟩ := idx t
  funext y
  show V c main_v27 (((cfg2.win 3).blk t).view.emb y) = V c main_v27 y
  refine congrArg (V c main_v27) (funext fun a => Fin.ext ?_)
  match a with
  | ⟨0, _⟩ => show win2_3.index t (0 : Fin 2) * 128 + 1 * (y 0).val = (y 0).val; omega
  | ⟨1, _⟩ => show win2_3.index t (1 : Fin 2) * 40 + 1 * (y 1).val = (y 1).val; omega

theorem blk4 (c : Dev nD) (t : Fin cfg2.N) : iblk2 V c 4 t = bias V c := by
  obtain ⟨-, -, -, -, -, -, -, -, e0, -⟩ := idx t
  funext y
  show V c main_arg9 (((cfg2.win 4).blk t).view.emb y) = V c main_arg9 y
  refine congrArg (V c main_arg9) (funext fun a => Fin.ext ?_)
  match a with
  | ⟨0, _⟩ => show win2_4.index t (0 : Fin 1) * 40 + 1 * (y 0).val = (y 0).val; omega

/-- WHAT POINT `t` WRITES BACK is block `t` of the read-out of the arrays as the region finds them. -/
theorem flushed_eq (c : Dev nD) (t : Fin cfg2.N) :
    (dat2 V c).flushed 5 t = ((cfg2.win 5).blk t).view.read (Elt Ideal)
      (Cert.Spec.readout (xs V c) (ag V c) (wrel V c) (wroot V c) (bias V c)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x40) hz2, View.ld_unit_zero (S := S40) hz1]
  rw [pay2_eq, blk2, blk3, blk4]
  funext j
  obtain ⟨p, q, rfl⟩ : ∃ (p : Fin 5000) (q : Fin 40), j = ix2 p q := ⟨j 0, j 1, eq_ix2 j⟩
  have hN : t.val < 20 := by have h := t.isLt; have e : cfg2.N = 20 := N_2; omega
  have hR : 5000 * t.val + p.val < 100000 := by have := p.isLt; omega
  show Cert.Spec.readout (iblk2 V c 0 t) (iblk2 V c 1 t) (wrel V c) (wroot V c) (bias V c) (ix2 p q)
    = Cert.Spec.readout (xs V c) (ag V c) (wrel V c) (wroot V c) (bias V c) (((cfg2.win 5).blk t).view.emb (ix2 p q))
  rw [emb_rows5 t p q ⟨_, hR⟩ rfl]
  refine Cert.Spec.readout_rows (5000 * t.val) (xs V c) (ag V c) (iblk2 V c 0 t) (iblk2 V c 1 t) (wrel V c) (wroot V c) (bias V c)
    (fun p' R hR' k => ?_) (fun p' R hR' k => ?_) p ⟨_, hR⟩ rfl q
  · show V c main_v14 (((cfg2.win 0).blk t).view.emb (ix2 p' k)) = V c main_v14 (ix2 R k)
    rw [emb_rows0 t p' k R hR']
  · show V c main_v25 (((cfg2.win 1).blk t).view.emb (ix2 p' k)) = V c main_v25 (ix2 R k)
    rw [emb_rows1 t p' k R hR']

/-- An index of the output array is in point `t`'s block iff each coordinate is in the block's range on its axis. -/
theorem mem_blk (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v28).slice (win2_5.rect t)).set ↔ _
  rw [View.set_slice_whole, Rect.mem_set_unit]
  exact Iff.rfl

/-- Every row lies in the block of the point `row / 5000`. -/
theorem cover (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_5 _, ?_⟩
  rw [mem_blk]
  obtain ⟨-, -, -, -, -, -, -, -, -, e0, e1⟩ := idx ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 40 ≤ (i 1).val ∧ (i 1).val < win2_5.index _ (1 : Fin 2) * 40 + 40
    rw [e1]; omega

/-- THE OUTPUT ARRAY after the region: the read-out of the arrays it was entered with. -/
theorem final (c : Dev nD) :
    (dat2 V c).arrAt 5 cfg2.N = Cert.Spec.readout (xs V c) (ag V c) (wrel V c) (wroot V c) (bias V c) :=
  (dat2 V c).arrAt_eq_of_cover 5 _ (fun t _ => flushed_eq V c t) cover

end Cert.KernelIdeal.Blocks2

end
-- ==== Proof.RefDefs.lean ====
/-
  The reference's host computation cut into the pieces the kernel's program also has, each as one function of its
  operands: the neighbour aggregation (a row gather by the wrapped source indices, then an accumulating scatter by the
  destination indices into a zero array), one graph-convolution layer with its relu, and the read-out with its log_softmax.
  Stated for any float family: nothing here opens an operation.
-/
import proofs.«163946_j23699629539722_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Row `r` of the edge list as a vector of 1600000 indices (r = 0: sources, r = 1: destinations). -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The aggregation of the rows of `y`: row `s k` (a negative index wrapped by 100000) added into row `d k`, over all edges k. -/
def aggOf (y : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- One layer on the host: `relu ((a · W + b) + x · W')`. -/
def layerH (x a : (⟨S100000x128, .f32⟩ : BufTy).Contents (Elt F)) (W : (⟨S128x128, .f32⟩ : BufTy).Contents (Elt F))
    (b : (⟨S128, .f32⟩ : BufTy).Contents (Elt F)) (W' : (⟨S128x128, .f32⟩ : BufTy).Contents (Elt F)) :
    (⟨S100000x128, .f32⟩ : BufTy).Contents (Elt F) :=
  maximumf (addf (addf (Host.dotGeneral dot_S100000x128_S128x128_S100000x128_1_0_0_1_n_n none a W)
      (broadcastInDim S100000x128 ![0, 1] bcast_S1x128_S100000x128_0_1 (broadcastInDim S1x128 ![1] bcast_S128_S1x128_1 b)))
      (Host.dotGeneral dot_S100000x128_S128x128_S100000x128_1_0_0_1_n_n none x W'))
    (broadcastInDim S100000x128 ![] bcast_S_S100000x128 (constant S_ .f32 0x00000000#32))

/-- `jax.nn.log_softmax` along the rows of a [100000, 40] array, as the host computes it. -/
def logSoftmaxH (z : (⟨S100000x40, .f32⟩ : BufTy).Contents (Elt F)) : (⟨S100000x40, .f32⟩ : BufTy).Contents (Elt F) :=
  subf
    (subf z (broadcastInDim S100000x40 ![0, 1] bcast_S100000x1_S100000x40_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x40_S100000_d1 h_S_)))))
    (broadcastInDim S100000x40 ![0, 1] bcast_S100000x1_S100000x40_0_1 (Host.log (broadcastInDim S100000x1 ![0] bcast_S100000_S100000x1_0
      (Host.reduceAdd (Host.exp (subf z (broadcastInDim S100000x40 ![0, 1] bcast_S100000x1_S100000x40_0_1 (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))))
        (constant S_ .f32 0x00000000#32) reducesTo_S100000x40_S100000_d1 h_S_))))

/-- The logits on the host: the concatenation [y1 | y2] against the 256-row weight matrix, plus the bias row. -/
def logitsH (y1 y2 : (⟨S100000x128, .f32⟩ : BufTy).Contents (Elt F)) (W : (⟨S256x40, .f32⟩ : BufTy).Contents (Elt F))
    (b : (⟨S40, .f32⟩ : BufTy).Contents (Elt F)) : (⟨S100000x40, .f32⟩ : BufTy).Contents (Elt F) :=
  addf (Host.dotGeneral dot_S100000x256_S256x40_S100000x40_1_0_0_1_n_n none
      (concatenate S100000x256 1 [⟨S100000x128, y1⟩, ⟨S100000x128, y2⟩] concatenates_S100000x128_S100000x128_S100000x256_d1) W)
    (broadcastInDim S100000x40 ![0, 1] bcast_S1x40_S100000x40_0_1 (broadcastInDim S1x40 ![1] bcast_S40_S1x40_1 b))

/-- The read-out on the host. -/
def readoutH (y1 y2 : (⟨S100000x128, .f32⟩ : BufTy).Contents (Elt F)) (W : (⟨S256x40, .f32⟩ : BufTy).Contents (Elt F))
    (b : (⟨S40, .f32⟩ : BufTy).Contents (Elt F)) : (⟨S100000x40, .f32⟩ : BufTy).Contents (Elt F) :=
  logSoftmaxH (logitsH y1 y2 W b)

end Cert.ReferenceIdeal.RefValue

end
-- ==== Proof.KernelHost.lean ====
/-
  The host stretches of the kernel's program between its three regions, each read at the buffers the next region takes:
  the first stretch computes the neighbour aggregation of the node features (and leaves the two index rows for the second
  stretch), the second the aggregation of the first layer's output, the third cuts the read-out weights into their two
  halves. Each is stated from ANY buffer contents `W`, over the same functions the reference's computation is cut into.
-/
import proofs.«163946_j23699629539722_1_alg».proof.Proof.Gen.KernelIdeal.Launch
import proofs.«163946_j23699629539722_1_alg».proof.Proof.RefDefs
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.RefValue (aggOf srcRow dstRow)

variable {F : FTy → Type} [FloatOps F] (W : Valuation τ sig (Elt F))

/-! ## The first stretch -/

theorem hostOps0_v1 : StableHlo.after (hostOps0 (F := F)) W (Proc.devRef .tc main_v1) = srcRow (F := F) (W (Proc.devRef .tc main_arg1)) := by
  after_results; rfl
theorem hostOps0_v3 : StableHlo.after (hostOps0 (F := F)) W (Proc.devRef .tc main_v3) = dstRow (F := F) (W (Proc.devRef .tc main_arg1)) := by
  after_results; rfl
theorem hostOps0_v13 : StableHlo.after (hostOps0 (F := F)) W (Proc.devRef .tc main_v13)
    = aggOf (F := F) (W (Proc.devRef .tc main_arg0)) (srcRow (F := F) (W (Proc.devRef .tc main_arg1))) (dstRow (F := F) (W (Proc.devRef .tc main_arg1))) := by
  after_results; rfl
theorem hostOps0_main_arg0 : StableHlo.after (hostOps0 (F := F)) W (Proc.devRef .tc main_arg0) = W (Proc.devRef .tc main_arg0) := by after_results
theorem hostOps0_main_arg2 : StableHlo.after (hostOps0 (F := F)) W (Proc.devRef .tc main_arg2) = W (Proc.devRef .tc main_arg2) := by after_results
theorem hostOps0_main_arg3 : StableHlo.after (hostOps0 (F := F)) W (Proc.devRef .tc main_arg3) = W (Proc.devRef .tc main_arg3) := by after_results
theorem hostOps0_main_arg4 : StableHlo.after (hostOps0 (F := F)) W (Proc.devRef .tc main_arg4) = W (Proc.devRef .tc main_arg4) := by after_results
theorem hostOps0_main_arg5 : StableHlo.after (hostOps0 (F := F)) W (Proc.devRef .tc main_arg5) = W (Proc.devRef .tc main_arg5) := by after_results
theorem hostOps0_main_arg6 : StableHlo.after (hostOps0 (F := F)) W (Proc.devRef .tc main_arg6) = W (Proc.devRef .tc main_arg6) := by after_results
theorem hostOps0_main_arg7 : StableHlo.after (hostOps0 (F := F)) W (Proc.devRef .tc main_arg7) = W (Proc.devRef .tc main_arg7) := by after_results
theorem hostOps0_main_arg8 : StableHlo.after (hostOps0 (F := F)) W (Proc.devRef .tc main_arg8) = W (Proc.devRef .tc main_arg8) := by after_results
theorem hostOps0_main_arg9 : StableHlo.after (hostOps0 (F := F)) W (Proc.devRef .tc main_arg9) = W (Proc.devRef .tc main_arg9) := by after_results

/-! ## The second stretch -/

theorem hostOps1_v24 : StableHlo.after (hostOps1 (F := F)) W (Proc.devRef .tc main_v24)
    = aggOf (F := F) (W (Proc.devRef .tc main_v14)) (W (Proc.devRef .tc main_v1)) (W (Proc.devRef .tc main_v3)) := by
  after_results; rfl
theorem hostOps1_main_v14 : StableHlo.after (hostOps1 (F := F)) W (Proc.devRef .tc main_v14) = W (Proc.devRef .tc main_v14) := by after_results
theorem hostOps1_main_arg5 : StableHlo.after (hostOps1 (F := F)) W (Proc.devRef .tc main_arg5) = W (Proc.devRef .tc main_arg5) := by after_results
theorem hostOps1_main_arg6 : StableHlo.after (hostOps1 (F := F)) W (Proc.devRef .tc main_arg6) = W (Proc.devRef .tc main_arg6) := by after_results
theorem hostOps1_main_arg7 : StableHlo.after (hostOps1 (F := F)) W (Proc.devRef .tc main_arg7) = W (Proc.devRef .tc main_arg7) := by after_results
theorem hostOps1_main_arg8 : StableHlo.after (hostOps1 (F := F)) W (Proc.devRef .tc main_arg8) = W (Proc.devRef .tc main_arg8) := by after_results
theorem hostOps1_main_arg9 : StableHlo.after (hostOps1 (F := F)) W (Proc.devRef .tc main_arg9) = W (Proc.devRef .tc main_arg9) := by after_results

/-! ## The third stretch -/

theorem hostOps2_v26 : StableHlo.after (hostOps2 (F := F)) W (Proc.devRef .tc main_v26)
    = extractStridedSlice S128x40 ![0, 0] (W (Proc.devRef .tc main_arg8)) slices_S256x40_S128x40_0_0 := by
  after_results
theorem hostOps2_v27 : StableHlo.after (hostOps2 (F := F)) W (Proc.devRef .tc main_v27)
    = extractStridedSlice S128x40 ![128, 0] (W (Proc.devRef .tc main_arg8)) slices_S256x40_S128x40_128_0 := by
  after_results
theorem hostOps2_main_v14 : StableHlo.after (hostOps2 (F := F)) W (Proc.devRef .tc main_v14) = W (Proc.devRef .tc main_v14) := by after_results
theorem hostOps2_main_v25 : StableHlo.after (hostOps2 (F := F)) W (Proc.devRef .tc main_v25) = W (Proc.devRef .tc main_v25) := by after_results
theorem hostOps2_main_arg9 : StableHlo.after (hostOps2 (F := F)) W (Proc.devRef .tc main_arg9) = W (Proc.devRef .tc main_arg9) := by after_results

end Cert.KernelIdeal.HostValue

end
-- ==== Proof.Model.lean ====
/-
  The whole network as one function of the ten argument arrays, at the extended reals: the neighbour aggregation is the
  host's own gather and accumulating scatter, kept as one function of the features and the edge list and never opened
  (both programs apply the same operations there); the two layers and the read-out are the functions of Spec.lean.
-/
import proofs.«163946_j23699629539722_1_alg».proof.Proof.RefDefs
import proofs.«163946_j23699629539722_1_alg».proof.Proof.Spec

noncomputable section

namespace Cert.Model

open Cert.ReferenceIdeal Cert.ReferenceIdeal.Gen Cert.ReferenceIdeal.RefValue Idealize.ShloMosaic

/-- The 256-row read-out weight matrix cuts into an upper and a lower half of 128 rows. -/
theorem slices_upper : S256x40.Slices ![0, 0] (⟨2, ![128, 40]⟩ : Shape) := by decide
theorem slices_lower : S256x40.Slices ![128, 0] (⟨2, ![128, 40]⟩ : Shape) := by decide

/-- The aggregate of the rows of `y` along the edges of `ei` (row 0: sources, row 1: destinations). -/
def agg (y : (⟨S100000x128, .f32⟩ : BufTy).Contents (Elt Ideal)) (ei : (⟨S2x1600000, .i32⟩ : BufTy).Contents (Elt Ideal)) :
    (⟨S100000x128, .f32⟩ : BufTy).Contents (Elt Ideal) :=
  aggOf (F := Ideal) y (srcRow (F := Ideal) ei) (dstRow (F := Ideal) ei)

/-- The first layer's output. -/
def hidden1 (x : (⟨S100000x128, .f32⟩ : BufTy).Contents (Elt Ideal)) (ei : (⟨S2x1600000, .i32⟩ : BufTy).Contents (Elt Ideal))
    (W1 : (⟨S128x128, .f32⟩ : BufTy).Contents (Elt Ideal)) (b1 : (⟨S128, .f32⟩ : BufTy).Contents (Elt Ideal))
    (W1' : (⟨S128x128, .f32⟩ : BufTy).Contents (Elt Ideal)) : (⟨S100000x128, .f32⟩ : BufTy).Contents (Elt Ideal) :=
  Cert.Spec.layer x (agg x ei) W1 b1 W1'

/-- The network's result: the read-out of the two layers' outputs. -/
def net (x : (⟨S100000x128, .f32⟩ : BufTy).Contents (Elt Ideal)) (ei : (⟨S2x1600000, .i32⟩ : BufTy).Contents (Elt Ideal))
    (W1 : (⟨S128x128, .f32⟩ : BufTy).Contents (Elt Ideal)) (b1 : (⟨S128, .f32⟩ : BufTy).Contents (Elt Ideal))
    (W1' W2 : (⟨S128x128, .f32⟩ : BufTy).Contents (Elt Ideal)) (b2 : (⟨S128, .f32⟩ : BufTy).Contents (Elt Ideal))
    (W2' : (⟨S128x128, .f32⟩ : BufTy).Contents (Elt Ideal)) (Wl : (⟨S256x40, .f32⟩ : BufTy).Contents (Elt Ideal))
    (bl : (⟨S40, .f32⟩ : BufTy).Contents (Elt Ideal)) : (⟨S100000x40, .f32⟩ : BufTy).Contents (Elt Ideal) :=
  Cert.Spec.readout (hidden1 x ei W1 b1 W1')
    (Cert.Spec.layer (hidden1 x ei W1 b1 W1') (agg (hidden1 x ei W1 b1 W1') ei) W2 b2 W2')
    (extractStridedSlice (⟨2, ![128, 40]⟩ : Shape) ![0, 0] Wl slices_upper)
    (extractStridedSlice (⟨2, ![128, 40]⟩ : Shape) ![128, 0] Wl slices_lower) bl

end Cert.Model

end
-- ==== Proof.KernelValue.lean ====
/-
  The kernel's result buffer after its run, as the network of its launch arguments: the buffer contents at each boundary
  of the program are read backwards from the last region — the read-out region's output from the two layers' outputs and
  the weight halves the third host stretch cut, the second layer's output from the first's and its aggregate, the first
  layer's from the node features and their aggregate — down to the launch memory.
-/
import proofs.«163946_j23699629539722_1_alg».proof.Proof.Gen.KernelIdeal.Frame
import proofs.«163946_j23699629539722_1_alg».proof.Proof.Blocks0
import proofs.«163946_j23699629539722_1_alg».proof.Proof.Blocks1
import proofs.«163946_j23699629539722_1_alg».proof.Proof.Blocks2
import proofs.«163946_j23699629539722_1_alg».proof.Proof.KernelHost
import proofs.«163946_j23699629539722_1_alg».proof.Proof.Model

set_option maxRecDepth 16384

noncomputable section

namespace Cert.KernelIdeal.Value

open Cert.KernelIdeal Cert.KernelIdeal.Gen Cert.KernelIdeal.HostValue
open Idealize.ShloMosaic Idealize.ShloMosaic.TcCoe Idealize.SL.Sem
open Cert.ReferenceIdeal.RefValue (aggOf srcRow dstRow)

variable (m : (ℓ : Loc nD τ sig) → Buf (Elt Ideal) ℓ) (ρ : Dev nD → PrngReg)

/-! ## At the first region's entry -/

theorem W1_arg0 (c : Dev nD) : W1 m ρ c (Proc.devRef .tc main_arg0) = (m ((c.tc : Thread nD τ).loc main_arg0)) := hostOps0_main_arg0 (W0 m ρ c)
theorem W1_arg2 (c : Dev nD) : W1 m ρ c (Proc.devRef .tc main_arg2) = (m ((c.tc : Thread nD τ).loc main_arg2)) := hostOps0_main_arg2 (W0 m ρ c)
theorem W1_arg3 (c : Dev nD) : W1 m ρ c (Proc.devRef .tc main_arg3) = (m ((c.tc : Thread nD τ).loc main_arg3)) := hostOps0_main_arg3 (W0 m ρ c)
theorem W1_arg4 (c : Dev nD) : W1 m ρ c (Proc.devRef .tc main_arg4) = (m ((c.tc : Thread nD τ).loc main_arg4)) := hostOps0_main_arg4 (W0 m ρ c)
theorem W1_arg5 (c : Dev nD) : W1 m ρ c (Proc.devRef .tc main_arg5) = (m ((c.tc : Thread nD τ).loc main_arg5)) := hostOps0_main_arg5 (W0 m ρ c)
theorem W1_arg6 (c : Dev nD) : W1 m ρ c (Proc.devRef .tc main_arg6) = (m ((c.tc : Thread nD τ).loc main_arg6)) := hostOps0_main_arg6 (W0 m ρ c)
theorem W1_arg7 (c : Dev nD) : W1 m ρ c (Proc.devRef .tc main_arg7) = (m ((c.tc : Thread nD τ).loc main_arg7)) := hostOps0_main_arg7 (W0 m ρ c)
theorem W1_arg8 (c : Dev nD) : W1 m ρ c (Proc.devRef .tc main_arg8) = (m ((c.tc : Thread nD τ).loc main_arg8)) := hostOps0_main_arg8 (W0 m ρ c)
theorem W1_arg9 (c : Dev nD) : W1 m ρ c (Proc.devRef .tc main_arg9) = (m ((c.tc : Thread nD τ).loc main_arg9)) := hostOps0_main_arg9 (W0 m ρ c)
theorem W1_v1 (c : Dev nD) : W1 m ρ c (Proc.devRef .tc main_v1) = srcRow (F := Ideal) (m ((c.tc : Thread nD τ).loc main_arg1)) := hostOps0_v1 (W0 m ρ c)
theorem W1_v3 (c : Dev nD) : W1 m ρ c (Proc.devRef .tc main_v3) = dstRow (F := Ideal) (m ((c.tc : Thread nD τ).loc main_arg1)) := hostOps0_v3 (W0 m ρ c)
theorem W1_v13 (c : Dev nD) : W1 m ρ c (Proc.devRef .tc main_v13) = Cert.Model.agg (m ((c.tc : Thread nD τ).loc main_arg0)) (m ((c.tc : Thread nD τ).loc main_arg1)) :=
  hostOps0_v13 (W0 m ρ c)

/-! ## After the first region -/

/-- The first layer's output array. -/
theorem W2_v14 (c : Dev nD) : W2 m ρ c (Proc.devRef .tc main_v14)
    = Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((Blocks0.final (V1 m ρ) c).trans ?_)
  show Cert.Spec.layer (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_arg4)) = _
  rw [W1_arg0, W1_v13, W1_arg2, W1_arg3, W1_arg4]
  rfl

theorem W2_v1 (c : Dev nD) : W2 m ρ c (Proc.devRef .tc main_v1) = srcRow (F := Ideal) (m ((c.tc : Thread nD τ).loc main_arg1)) :=
  (W2_of_ne m ρ c main_v1 (by decide)).trans (W1_v1 m ρ c)
theorem W2_v3 (c : Dev nD) : W2 m ρ c (Proc.devRef .tc main_v3) = dstRow (F := Ideal) (m ((c.tc : Thread nD τ).loc main_arg1)) :=
  (W2_of_ne m ρ c main_v3 (by decide)).trans (W1_v3 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg7 (c : Dev nD) : W2 m ρ c (Proc.devRef .tc main_arg7) = (m ((c.tc : Thread nD τ).loc main_arg7)) :=
  (W2_of_ne m ρ c main_arg7 (by decide)).trans (W1_arg7 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)

/-! ## At the second region's entry -/

theorem W3_v14 (c : Dev nD) : W3 m ρ c (Proc.devRef .tc main_v14) = (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (hostOps1_main_v14 (W2 m ρ c)).trans (W2_v14 m ρ c)
theorem W3_arg5 (c : Dev nD) : W3 m ρ c (Proc.devRef .tc main_arg5) = (m ((c.tc : Thread nD τ).loc main_arg5)) :=
  (hostOps1_main_arg5 (W2 m ρ c)).trans (W2_arg5 m ρ c)
theorem W3_arg6 (c : Dev nD) : W3 m ρ c (Proc.devRef .tc main_arg6) = (m ((c.tc : Thread nD τ).loc main_arg6)) :=
  (hostOps1_main_arg6 (W2 m ρ c)).trans (W2_arg6 m ρ c)
theorem W3_arg7 (c : Dev nD) : W3 m ρ c (Proc.devRef .tc main_arg7) = (m ((c.tc : Thread nD τ).loc main_arg7)) :=
  (hostOps1_main_arg7 (W2 m ρ c)).trans (W2_arg7 m ρ c)
theorem W3_arg8 (c : Dev nD) : W3 m ρ c (Proc.devRef .tc main_arg8) = (m ((c.tc : Thread nD τ).loc main_arg8)) :=
  (hostOps1_main_arg8 (W2 m ρ c)).trans (W2_arg8 m ρ c)
theorem W3_arg9 (c : Dev nD) : W3 m ρ c (Proc.devRef .tc main_arg9) = (m ((c.tc : Thread nD τ).loc main_arg9)) :=
  (hostOps1_main_arg9 (W2 m ρ c)).trans (W2_arg9 m ρ c)
/-- The aggregate of the first layer's output. -/
theorem W3_v24 (c : Dev nD) : W3 m ρ c (Proc.devRef .tc main_v24) = Cert.Model.agg (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  refine (hostOps1_v24 (W2 m ρ c)).trans ?_
  rw [W2_v14, W2_v1, W2_v3]
  rfl

/-! ## After the second region -/

/-- The second layer's output array. -/
theorem W4_v25 (c : Dev nD) : W4 m ρ c (Proc.devRef .tc main_v25) = (Cert.Spec.layer (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Cert.Model.agg (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1))) (m ((c.tc : Thread nD τ).loc main_arg5)) (m ((c.tc : Thread nD τ).loc main_arg6)) (m ((c.tc : Thread nD τ).loc main_arg7))) := by
  refine (W4_arr m ρ c 5).trans ((Blocks1.final (V3 m ρ) c).trans ?_)
  show Cert.Spec.layer (W3 m ρ c (Proc.devRef .tc main_v14)) (W3 m ρ c (Proc.devRef .tc main_v24)) (W3 m ρ c (Proc.devRef .tc main_arg5))
    (W3 m ρ c (Proc.devRef .tc main_arg6)) (W3 m ρ c (Proc.devRef .tc main_arg7)) = _
  rw [W3_v14, W3_v24, W3_arg5, W3_arg6, W3_arg7]
/-- The first layer's output is an input of the second region: it is left as entered. -/
theorem W4_v14 (c : Dev nD) : W4 m ρ c (Proc.devRef .tc main_v14) = (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (W4_arr m ρ c 0).trans ((((dat1 (V3 m ρ) c).arrAt_in 0 rfl _).trans (A_eq1 (V3 m ρ) c 0)).trans (W3_v14 m ρ c))
theorem W4_arg8 (c : Dev nD) : W4 m ρ c (Proc.devRef .tc main_arg8) = (m ((c.tc : Thread nD τ).loc main_arg8)) :=
  (W4_of_ne m ρ c main_arg8 (by decide)).trans (W3_arg8 m ρ c)
theorem W4_arg9 (c : Dev nD) : W4 m ρ c (Proc.devRef .tc main_arg9) = (m ((c.tc : Thread nD τ).loc main_arg9)) :=
  (W4_of_ne m ρ c main_arg9 (by decide)).trans (W3_arg9 m ρ c)

/-! ## At the third region's entry -/

theorem W5_v14 (c : Dev nD) : W5 m ρ c (Proc.devRef .tc main_v14) = (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (hostOps2_main_v14 (W4 m ρ c)).trans (W4_v14 m ρ c)
theorem W5_v25 (c : Dev nD) : W5 m ρ c (Proc.devRef .tc main_v25) = (Cert.Spec.layer (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Cert.Model.agg (Cert.Model.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1))) (m ((c.tc : Thread nD τ).loc main_arg5)) (m ((c.tc : Thread nD τ).loc main_arg6)) (m ((c.tc : Thread nD τ).loc main_arg7))) :=
  (hostOps2_main_v25 (W4 m ρ c)).trans (W4_v25 m ρ c)
theorem W5_arg9 (c : Dev nD) : W5 m ρ c (Proc.devRef .tc main_arg9) = (m ((c.tc : Thread nD τ).loc main_arg9)) :=
  (hostOps2_main_arg9 (W4 m ρ c)).trans (W4_arg9 m ρ c)
theorem W5_v26 (c : Dev nD) : W5 m ρ c (Proc.devRef .tc main_v26)
    = extractStridedSlice (⟨2, ![128, 40]⟩ : Shape) ![0, 0] (m ((c.tc : Thread nD τ).loc main_arg8)) Cert.Model.slices_upper := by
  refine (hostOps2_v26 (W4 m ρ c)).trans ?_
  rw [W4_arg8]
theorem W5_v27 (c : Dev nD) : W5 m ρ c (Proc.devRef .tc main_v27)
    = extractStridedSlice (⟨2, ![128, 40]⟩ : Shape) ![128, 0] (m ((c.tc : Thread nD τ).loc main_arg8)) Cert.Model.slices_lower := by
  refine (hostOps2_v27 (W4 m ρ c)).trans ?_
  rw [W4_arg8]

/-! ## After the third region: the result -/

/-- THE RESULT BUFFER at the last boundary is the network of the launch arguments. -/
theorem result_eq (c : Dev nD) : W6 m ρ c (Proc.devRef .tc main_v28)
    = Cert.Model.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 5).trans ((Blocks2.final (V5 m ρ) c).trans ?_)
  show Cert.Spec.readout (W5 m ρ c (Proc.devRef .tc main_v14)) (W5 m ρ c (Proc.devRef .tc main_v25)) (W5 m ρ c (Proc.devRef .tc main_v26))
    (W5 m ρ c (Proc.devRef .tc main_v27)) (W5 m ρ c (Proc.devRef .tc main_arg9)) = _
  rw [W5_v14, W5_v25, W5_v26, W5_v27, W5_arg9]
  rfl

end Cert.KernelIdeal.Value

end
-- ==== Proof.RefChunks.lean ====
/-
  The reference's operation list cut into stretches — the first aggregation, the first layer, the second
  aggregation, the second layer, the read-out's logits and its log_softmax — and each stretch read at the buffers the next one takes, from ANY buffer
  contents `W`: the result buffer at the stretch's function of its operands, every other buffer untouched.
-/
import proofs.«163946_j23699629539722_1_alg».proof.Proof.RefOps
import proofs.«163946_j23699629539722_1_alg».proof.Proof.RefDefs
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.RefValue (aggOf srcRow dstRow layerH readoutH logitsH logSoftmaxH)

variable {F : FTy → Type} [FloatOps F]

/-- The first aggregation: operations 1 to 17. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The first layer: operations 18 to 26. -/
abbrev opsB : List (HloOp τ sig (Elt F)) :=
  [ binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    binary main_arg0 main_arg4 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v17 main_v18 main_v19 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v19) (TRef.of (T := ⟨S100000x128, .f32⟩) main_call0_v0) (TRef.of (T := ⟨S100000x128, .f32⟩) main_v20) maximumf ]
/-- The second aggregation: operations 27 to 39. -/
abbrev opsC : List (HloOp τ sig (Elt F)) :=
  [ nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v28 (broadcastInDim S100000x128 ![] bcast_S_S100000x128 : (⟨S_, .f32⟩ : BufTy).Contents (Elt F) → (⟨S100000x128, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The second layer: operations 40 to 48. -/
abbrev opsD : List (HloOp τ sig (Elt F)) :=
  [ binary main_v30 main_arg5 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    binary main_v20 main_arg7 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v34 main_v35 main_v36 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v36) (TRef.of (T := ⟨S100000x128, .f32⟩) main_call1_v0) (TRef.of (T := ⟨S100000x128, .f32⟩) main_v37) maximumf ]
/-- The read-out's logits: operations 49 to 53. -/
abbrev opsE1 : List (HloOp τ sig (Elt F)) :=
  [ binary main_v20 main_v37 main_v38 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v38 main_arg8 main_v39 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg9 main_v40 (broadcastInDim S1x40 ![1] bcast_S40_S1x40_1 : (⟨S40, .f32⟩ : BufTy).Contents (Elt F) → (⟨S1x40, .f32⟩ : BufTy).Contents (Elt F)),
    unary main_v40 main_v41 (broadcastInDim S100000x40 ![0, 1] bcast_S1x40_S100000x40_0_1 : (⟨S1x40, .f32⟩ : BufTy).Contents (Elt F) → (⟨S100000x40, .f32⟩ : BufTy).Contents (Elt F)),
    binary main_v39 main_v41 main_v42 (addf : (⟨S100000x40, .f32⟩ : BufTy).Contents (Elt F) → (⟨S100000x40, .f32⟩ : BufTy).Contents (Elt F) → (⟨S100000x40, .f32⟩ : BufTy).Contents (Elt F)) ]
/-- The read-out's log_softmax: operations 54 to 68. -/
abbrev opsE2 : List (HloOp τ sig (Elt F)) :=
  [ TRef.nullary (TRef.of (T := ⟨S_, .f32⟩) main_call2_cst) (constant S_ .f32 0xFF800000#32),
    TRef.binary (TRef.of (T := ⟨S100000x40, .f32⟩) main_v42) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v42) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v43) subf ]

/-- The list is the stretches in a row. -/
theorem ops_split : (ops (F := F)) = opsA ++ (opsB ++ (opsC ++ (opsD ++ (opsE1 ++ opsE2)))) := rfl

variable (W : Valuation τ sig (Elt F))

/-! ## The first aggregation -/

theorem opsA_main_v1 : after (opsA (F := F)) W (Proc.devRef .tc main_v1) = srcRow (F := F) (W (Proc.devRef .tc main_arg1)) := by
  after_results; rfl
theorem opsA_main_v3 : after (opsA (F := F)) W (Proc.devRef .tc main_v3) = dstRow (F := F) (W (Proc.devRef .tc main_arg1)) := by
  after_results; rfl
theorem opsA_main_v13 : after (opsA (F := F)) W (Proc.devRef .tc main_v13)
    = aggOf (F := F) (W (Proc.devRef .tc main_arg0)) (srcRow (F := F) (W (Proc.devRef .tc main_arg1))) (dstRow (F := F) (W (Proc.devRef .tc main_arg1))) := by
  after_results; rfl
theorem opsA_main_arg0 : after (opsA (F := F)) W (Proc.devRef .tc main_arg0) = W (Proc.devRef .tc main_arg0) := by after_results
theorem opsA_main_arg2 : after (opsA (F := F)) W (Proc.devRef .tc main_arg2) = W (Proc.devRef .tc main_arg2) := by after_results
theorem opsA_main_arg3 : after (opsA (F := F)) W (Proc.devRef .tc main_arg3) = W (Proc.devRef .tc main_arg3) := by after_results
theorem opsA_main_arg4 : after (opsA (F := F)) W (Proc.devRef .tc main_arg4) = W (Proc.devRef .tc main_arg4) := by after_results
theorem opsA_main_arg5 : after (opsA (F := F)) W (Proc.devRef .tc main_arg5) = W (Proc.devRef .tc main_arg5) := by after_results
theorem opsA_main_arg6 : after (opsA (F := F)) W (Proc.devRef .tc main_arg6) = W (Proc.devRef .tc main_arg6) := by after_results
theorem opsA_main_arg7 : after (opsA (F := F)) W (Proc.devRef .tc main_arg7) = W (Proc.devRef .tc main_arg7) := by after_results
theorem opsA_main_arg8 : after (opsA (F := F)) W (Proc.devRef .tc main_arg8) = W (Proc.devRef .tc main_arg8) := by after_results
theorem opsA_main_arg9 : after (opsA (F := F)) W (Proc.devRef .tc main_arg9) = W (Proc.devRef .tc main_arg9) := by after_results

/-! ## The first layer -/

theorem opsB_main_v20 : after (opsB (F := F)) W (Proc.devRef .tc main_v20)
    = layerH (F := F) (W (Proc.devRef .tc main_arg0)) (W (Proc.devRef .tc main_v13)) (W (Proc.devRef .tc main_arg2)) (W (Proc.devRef .tc main_arg3)) (W (Proc.devRef .tc main_arg4)) := by
  after_results; rfl
theorem opsB_main_v1 : after (opsB (F := F)) W (Proc.devRef .tc main_v1) = W (Proc.devRef .tc main_v1) := by after_results
theorem opsB_main_v3 : after (opsB (F := F)) W (Proc.devRef .tc main_v3) = W (Proc.devRef .tc main_v3) := by after_results
theorem opsB_main_arg5 : after (opsB (F := F)) W (Proc.devRef .tc main_arg5) = W (Proc.devRef .tc main_arg5) := by after_results
theorem opsB_main_arg6 : after (opsB (F := F)) W (Proc.devRef .tc main_arg6) = W (Proc.devRef .tc main_arg6) := by after_results
theorem opsB_main_arg7 : after (opsB (F := F)) W (Proc.devRef .tc main_arg7) = W (Proc.devRef .tc main_arg7) := by after_results
theorem opsB_main_arg8 : after (opsB (F := F)) W (Proc.devRef .tc main_arg8) = W (Proc.devRef .tc main_arg8) := by after_results
theorem opsB_main_arg9 : after (opsB (F := F)) W (Proc.devRef .tc main_arg9) = W (Proc.devRef .tc main_arg9) := by after_results

/-! ## The second aggregation -/

theorem opsC_main_v30 : after (opsC (F := F)) W (Proc.devRef .tc main_v30)
    = aggOf (F := F) (W (Proc.devRef .tc main_v20)) (W (Proc.devRef .tc main_v1)) (W (Proc.devRef .tc main_v3)) := by
  after_results; rfl
theorem opsC_main_v20 : after (opsC (F := F)) W (Proc.devRef .tc main_v20) = W (Proc.devRef .tc main_v20) := by after_results
theorem opsC_main_arg5 : after (opsC (F := F)) W (Proc.devRef .tc main_arg5) = W (Proc.devRef .tc main_arg5) := by after_results
theorem opsC_main_arg6 : after (opsC (F := F)) W (Proc.devRef .tc main_arg6) = W (Proc.devRef .tc main_arg6) := by after_results
theorem opsC_main_arg7 : after (opsC (F := F)) W (Proc.devRef .tc main_arg7) = W (Proc.devRef .tc main_arg7) := by after_results
theorem opsC_main_arg8 : after (opsC (F := F)) W (Proc.devRef .tc main_arg8) = W (Proc.devRef .tc main_arg8) := by after_results
theorem opsC_main_arg9 : after (opsC (F := F)) W (Proc.devRef .tc main_arg9) = W (Proc.devRef .tc main_arg9) := by after_results

/-! ## The second layer -/

theorem opsD_main_v37 : after (opsD (F := F)) W (Proc.devRef .tc main_v37)
    = layerH (F := F) (W (Proc.devRef .tc main_v20)) (W (Proc.devRef .tc main_v30)) (W (Proc.devRef .tc main_arg5)) (W (Proc.devRef .tc main_arg6)) (W (Proc.devRef .tc main_arg7)) := by
  after_results; rfl
theorem opsD_main_v20 : after (opsD (F := F)) W (Proc.devRef .tc main_v20) = W (Proc.devRef .tc main_v20) := by after_results
theorem opsD_main_arg8 : after (opsD (F := F)) W (Proc.devRef .tc main_arg8) = W (Proc.devRef .tc main_arg8) := by after_results
theorem opsD_main_arg9 : after (opsD (F := F)) W (Proc.devRef .tc main_arg9) = W (Proc.devRef .tc main_arg9) := by after_results

/-! ## The read-out -/

theorem opsE1_main_v42 : after (opsE1 (F := F)) W (Proc.devRef .tc main_v42)
    = logitsH (F := F) (W (Proc.devRef .tc main_v20)) (W (Proc.devRef .tc main_v37)) (W (Proc.devRef .tc main_arg8)) (W (Proc.devRef .tc main_arg9)) := by
  after_results; rfl

/-- The read-out's second half — the fifteen operations of `log_softmax` — for ANY functions in the places of its
    reductions, broadcasts and pointwise operations: the result buffer holds their composition, the shifted logits less
    the logarithm of the sum of their exponentials. (Stated over variables, so that reading the list opens none of them.) -/
theorem logSoftmax_ops (cinf c0 : (⟨S_, .f32⟩ : BufTy).Contents (Elt F))
    (Rmax : (⟨S100000x40, .f32⟩ : BufTy).Contents (Elt F) → (⟨S_, .f32⟩ : BufTy).Contents (Elt F) → (⟨S100000, .f32⟩ : BufTy).Contents (Elt F))
    (Radd : (⟨S100000x40, .f32⟩ : BufTy).Contents (Elt F) → (⟨S_, .f32⟩ : BufTy).Contents (Elt F) → (⟨S100000, .f32⟩ : BufTy).Contents (Elt F))
    (b1 : (⟨S_, .f32⟩ : BufTy).Contents (Elt F) → (⟨S100000, .f32⟩ : BufTy).Contents (Elt F)) (b2 : (⟨S100000, .f32⟩ : BufTy).Contents (Elt F) → (⟨S100000x1, .f32⟩ : BufTy).Contents (Elt F))
    (b3 : (⟨S100000x1, .f32⟩ : BufTy).Contents (Elt F) → (⟨S100000x40, .f32⟩ : BufTy).Contents (Elt F))
    (mx : (⟨S100000, .f32⟩ : BufTy).Contents (Elt F) → (⟨S100000, .f32⟩ : BufTy).Contents (Elt F) → (⟨S100000, .f32⟩ : BufTy).Contents (Elt F))
    (sb : (⟨S100000x40, .f32⟩ : BufTy).Contents (Elt F) → (⟨S100000x40, .f32⟩ : BufTy).Contents (Elt F) → (⟨S100000x40, .f32⟩ : BufTy).Contents (Elt F))
    (ex : (⟨S100000x40, .f32⟩ : BufTy).Contents (Elt F) → (⟨S100000x40, .f32⟩ : BufTy).Contents (Elt F)) (lg : (⟨S100000x1, .f32⟩ : BufTy).Contents (Elt F) → (⟨S100000x1, .f32⟩ : BufTy).Contents (Elt F))
    (W : Valuation τ sig (Elt F)) :
    after ([ TRef.nullary (TRef.of (T := ⟨S_, .f32⟩) main_call2_cst) cinf,
        TRef.binary (TRef.of (T := ⟨S100000x40, .f32⟩) main_v42) (TRef.of (T := ⟨S_, .f32⟩) main_call2_cst) (TRef.of (T := ⟨S100000, .f32⟩) main_call2_v0) Rmax,
        TRef.nullary (TRef.of (T := ⟨S_, .f32⟩) main_call2_cst_0) cinf,
        TRef.unary (TRef.of (T := ⟨S_, .f32⟩) main_call2_cst_0) (TRef.of (T := ⟨S100000, .f32⟩) main_call2_v1) b1,
        TRef.binary (TRef.of (T := ⟨S100000, .f32⟩) main_call2_v1) (TRef.of (T := ⟨S100000, .f32⟩) main_call2_v0) (TRef.of (T := ⟨S100000, .f32⟩) main_call2_v2) mx,
        TRef.unary (TRef.of (T := ⟨S100000, .f32⟩) main_call2_v2) (TRef.of (T := ⟨S100000x1, .f32⟩) main_call2_v3) b2,
        TRef.unary (TRef.of (T := ⟨S100000x1, .f32⟩) main_call2_v3) (TRef.of (T := ⟨S100000x40, .f32⟩) main_call2_v4) b3,
        TRef.binary (TRef.of (T := ⟨S100000x40, .f32⟩) main_v42) (TRef.of (T := ⟨S100000x40, .f32⟩) main_call2_v4) (TRef.of (T := ⟨S100000x40, .f32⟩) main_call2_v5) sb,
        TRef.unary (TRef.of (T := ⟨S100000x40, .f32⟩) main_call2_v5) (TRef.of (T := ⟨S100000x40, .f32⟩) main_call2_v6) ex,
        TRef.nullary (TRef.of (T := ⟨S_, .f32⟩) main_call2_cst_1) c0,
        TRef.binary (TRef.of (T := ⟨S100000x40, .f32⟩) main_call2_v6) (TRef.of (T := ⟨S_, .f32⟩) main_call2_cst_1) (TRef.of (T := ⟨S100000, .f32⟩) main_call2_v7) Radd,
        TRef.unary (TRef.of (T := ⟨S100000, .f32⟩) main_call2_v7) (TRef.of (T := ⟨S100000x1, .f32⟩) main_call2_v8) b2,
        TRef.unary (TRef.of (T := ⟨S100000x1, .f32⟩) main_call2_v8) (TRef.of (T := ⟨S100000x1, .f32⟩) main_call2_v9) lg,
        TRef.unary (TRef.of (T := ⟨S100000x1, .f32⟩) main_call2_v9) (TRef.of (T := ⟨S100000x40, .f32⟩) main_call2_v10) b3,
        TRef.binary (TRef.of (T := ⟨S100000x40, .f32⟩) main_call2_v5) (TRef.of (T := ⟨S100000x40, .f32⟩) main_call2_v10) (TRef.of (T := ⟨S100000x40, .f32⟩) main_v43) sb ] : List (HloOp τ sig (Elt F)))
      W (Proc.devRef .tc main_v43)
      = sb (sb (W (Proc.devRef .tc main_v42)) (b3 (b2 (mx (b1 cinf) (Rmax (W (Proc.devRef .tc main_v42)) cinf)))))
          (b3 (lg (b2 (Radd (ex (sb (W (Proc.devRef .tc main_v42)) (b3 (b2 (mx (b1 cinf) (Rmax (W (Proc.devRef .tc main_v42)) cinf)))))) c0)))) := by
  after_results; rfl

/-- The fifteen operations of `log_softmax` at the host's own functions. -/
theorem opsE2_main_v43 : after (opsE2 (F := F)) W (Proc.devRef .tc main_v43) = logSoftmaxH (F := F) (W (Proc.devRef .tc main_v42)) :=
  logSoftmax_ops (constant S_ .f32 0xFF800000#32) (constant S_ .f32 0x00000000#32)
    (fun x v => Host.reduce FloatOps.maximumf x v reducesTo_S100000x40_S100000_d1 h_S_)
    (fun x v => Host.reduceAdd x v reducesTo_S100000x40_S100000_d1 h_S_)
    (broadcastInDim S100000 ![] bcast_S_S100000) (broadcastInDim S100000x1 ![0] bcast_S100000_S100000x1_0)
    (broadcastInDim S100000x40 ![0, 1] bcast_S100000x1_S100000x40_0_1) maximumf subf Host.exp Host.log W

/-- The whole read-out. -/
theorem opsE_main_v43 : after (opsE1 (F := F) ++ opsE2) W (Proc.devRef .tc main_v43)
    = readoutH (F := F) (W (Proc.devRef .tc main_v20)) (W (Proc.devRef .tc main_v37)) (W (Proc.devRef .tc main_arg8)) (W (Proc.devRef .tc main_arg9)) := by
  rw [StableHlo.after_append, opsE2_main_v43, opsE1_main_v42]
  rfl

end Cert.ReferenceIdeal.RunP

end
-- ==== Proof.RefLayer.lean ====
/-
  The reference's graph-convolution layer as the layer function: `relu ((a · W_rel + b) + x · W_root)` is
  `relu ((a · W_rel + x · W_root) + b)`, addition on the extended reals being commutative and associative.
-/
import proofs.«163946_j23699629539722_1_alg».proof.Proof.RefDefs
import proofs.«163946_j23699629539722_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The left operand's index of the layer product keeps the output's row. -/
private theorem lhs_dot_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column is the contraction coordinate. -/
private theorem lhs_dot_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- The right operand's row is the contraction coordinate. -/
private theorem rhs_dot_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- The right operand's index keeps the output's column. -/
private theorem rhs_dot_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's [100000,128] × [128,128] product read at (p, q): the sum over k of l (p, k) · r (k, q). -/
private theorem dot_ix2 (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row, broadcast to [1,128] and then down the 100000 rows, read at (p, q): b q. -/
private theorem bias_ix2 (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply _ bcast_S1x128_S100000x128_0_1 (broadcastInDim S1x128 ![1] bcast_S128_S1x128_1 b) (ix2 p q)
      (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
    (broadcastInDim_apply _ bcast_S128_S1x128_1 b (ix2 (0 : Fin 1) q) (ix1 q) (fun a => match a with
    | ⟨0, _⟩ => by show q.val = if (128 : Nat) = 1 then 0 else q.val; rw [if_neg (by decide)]))

/-- The scalar zero broadcast to the whole array reads 0 everywhere. -/
private theorem zero_ix2 (p : Fin 100000) (q : Fin 128) :
    broadcastInDim S100000x128 ![] bcast_S_S100000x128 (constant (F := Ideal) S_ .f32 0x00000000#32) (ix2 p q) = 0 :=
  (broadcastInDim_apply _ bcast_S_S100000x128 (constant (F := Ideal) S_ .f32 0x00000000#32) (ix2 p q) ix0
    (fun a => a.elim0)).trans Ideal.ofBits_zero_f32

/-- Adding the bias between the two products or after them gives the same extended real. -/
private theorem relu_add_right_comm (s t u : EReal) : max ((s + u) + t) 0 = max ((s + t) + u) 0 := by
  rw [add_right_comm]

/-- The host's layer on any operands is the layer function of them. -/
theorem host_layer (x a : FVec Ideal S100000x128 .f32) (W : FVec Ideal S128x128 .f32) (b : FVec Ideal S128 .f32) (W' : FVec Ideal S128x128 .f32) :
    layerH (F := Ideal) x a W b W' = Cert.Spec.layer x a W b W' := by
  funext i
  obtain ⟨p, q, rfl⟩ : ∃ (p : Fin 100000) (q : Fin 128), i = ix2 p q := ⟨i 0, i 1, eq_ix2 i⟩
  rw [Cert.Spec.layer_ix2]
  unfold Cert.Spec.layerRow layerH
  refine (congrArg₂ max
    (congrArg₂ (· + ·) (congrArg₂ (· + ·) (dot_ix2 a W p q) (bias_ix2 b p q)) (dot_ix2 x W' p q))
    (zero_ix2 p q)).trans ?_
  exact relu_add_right_comm _ _ _

end Cert.ReferenceIdeal.RefValue

end
-- ==== Proof.RefFinal.lean ====
/-
  The reference's read-out as the read-out function: the product of the concatenation [y1 | y2] with the 256-row weight
  matrix splits into y1 against its upper 128 rows plus y2 against its lower 128 rows; `jax.nn.log_softmax` takes
  `max (-∞) (row maximum)`, which is the row maximum.
-/
import proofs.«163946_j23699629539722_1_alg».proof.Proof.RefDefs
import proofs.«163946_j23699629539722_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The row-wise log_softmax on the host, read at an index -/

/-- A column `[100000]` placed on axis 0 of `[100000, 1]` reads, at `(r, u)`, the column at `r`. -/
private theorem colIn_apply (v : FVec Ideal S100000 .f32) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A `[100000, 1]` array laid along the rows of `[100000, 40]` reads, at `(r, q)`, its one column at `r`. -/
private theorem colOut_apply (w : FVec Ideal S100000x1 .f32) (r : Fin 100000) (q : Fin 40) :
    broadcastInDim S100000x40 ![0, 1] bcast_S100000x1_S100000x40_0_1 w (ix2 r q) = w (ix2 r (0 : Fin 1)) :=
  broadcastInDim_apply _ bcast_S100000x1_S100000x40_0_1 w (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

private theorem reduces_d1 : S100000x40.Reduces [1] S100000 := by decide

/-- The reduced index `r` with the coordinate `k` put back on axis 1 is `(r, k)`. -/
private theorem lift_ix1 (r : Fin 100000) (k : Fin 40) : reduces_d1.lift (ix1 r) k = ix2 r k :=
  funext fun a => Fin.ext (by
    match a with
    | ⟨0, _⟩ => rfl
    | ⟨1, _⟩ => rfl)

private theorem rowSumH_apply (e : FVec Ideal S100000x40 .f32) (r : Fin 100000) :
    Host.reduceAdd e (constant (F := Ideal) S_ .f32 0x00000000#32) reducesTo_S100000x40_S100000_d1 h_S_ (ix1 r)
      = ∑ k : Fin 40, e (ix2 r k) := by
  simp only [Host.reduceAdd, Ideal.hostReduceAdd_def]
  rw [Ideal.hostReduceAdd_single reducesTo_S100000x40_S100000_d1 reduces_d1]
  refine (congrArg (· + ∑ k : Fin 40, e (reduces_d1.lift (ix1 r) k)) Ideal.ofBits_zero_f32).trans ?_
  rw [zero_add]
  exact Finset.sum_congr rfl fun k _ => congrArg e (lift_ix1 r k)

/-- The row maximum as the host takes it: `max (-∞)` of the fold of `max` from `-∞`. -/
private def rowMaxH (z : FVec Ideal S100000x40 .f32) : FVec Ideal S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- The host's fold of `max` along a row, read at `r`. -/
private theorem rowFold_apply (z : FVec Ideal S100000x40 .f32) (r : Fin 100000) :
    Host.reduce FloatOps.maximumf z (constant (F := Ideal) S_ .f32 0xFF800000#32) reducesTo_S100000x40_S100000_d1 h_S_ (ix1 r)
      = (Finset.univ : Finset (Fin 40)).fold max (Ideal.ofBits .f32 0xFF800000#32) (fun k => z (ix2 r k)) :=
  (Host.reduce_eq_fold_single FloatOps.maximumf z (constant (F := Ideal) S_ .f32 0xFF800000#32)
      reducesTo_S100000x40_S100000_d1 reduces_d1 h_S_ (ix1 r)).trans
    (congrArg (fun f : Fin 40 → EReal => (Finset.univ : Finset (Fin 40)).fold max (Ideal.ofBits .f32 0xFF800000#32) f)
      (funext fun k => congrArg z (lift_ix1 r k)))

private theorem rowMaxH_apply (z : FVec Ideal S100000x40 .f32) (r : Fin 100000) :
    rowMaxH z (ix1 r)
      = (Finset.univ : Finset (Fin 40)).fold max (Ideal.ofBits .f32 0xFF800000#32) (fun k => z (ix2 r k)) := by
  unfold rowMaxH
  refine (maximumf_apply _ _ (ix1 r)).trans ?_
  rw [rowFold_apply z r]
  exact max_eq_right ((Finset.le_fold_max _).mpr (Or.inl (le_of_eq rfl)))

/-- The row shifted by its maximum, as the host computes it. -/
private def shiftedH (z : FVec Ideal S100000x40 .f32) : FVec Ideal S100000x40 .f32 :=
  subf z (broadcastInDim S100000x40 ![0, 1] bcast_S100000x1_S100000x40_0_1
    (broadcastInDim S100000x1 ![0] bcast_S100000_S100000x1_0 (rowMaxH z)))

private theorem logSoftmaxH_split (z : FVec Ideal S100000x40 .f32) :
    logSoftmaxH (F := Ideal) z
      = subf (shiftedH z) (broadcastInDim S100000x40 ![0, 1] bcast_S100000x1_S100000x40_0_1
          (Host.log (broadcastInDim S100000x1 ![0] bcast_S100000_S100000x1_0
            (Host.reduceAdd (Host.exp (shiftedH z)) (constant S_ .f32 0x00000000#32) reducesTo_S100000x40_S100000_d1 h_S_)))) := rfl

private theorem shiftedH_apply (z : FVec Ideal S100000x40 .f32) (r : Fin 100000) (k : Fin 40) :
    shiftedH z (ix2 r k)
      = z (ix2 r k) - (Finset.univ : Finset (Fin 40)).fold max (Ideal.ofBits .f32 0xFF800000#32) (fun k => z (ix2 r k)) := by
  unfold shiftedH
  refine (subf_apply _ _ (ix2 r k)).trans ?_
  exact congrArg (fun m : EReal => z (ix2 r k) - m)
    ((colOut_apply _ r k).trans ((colIn_apply _ r 0).trans (rowMaxH_apply z r)))

private theorem hostLog_apply {s : Shape} (v : FVec Ideal s .f32) (i : s.Idx) : Host.log v i = Ideal.log (v i) := rfl
private theorem hostExp_apply {s : Shape} (v : FVec Ideal s .f32) (i : s.Idx) : Host.exp v i = Ideal.exp (v i) := rfl

/-- The logarithm of the row's sum of exponentials, laid along the row, read at `(r, q)`. -/
private theorem normaliserH_apply (s : FVec Ideal S100000x40 .f32) (r : Fin 100000) (q : Fin 40) :
    broadcastInDim S100000x40 ![0, 1] bcast_S100000x1_S100000x40_0_1
        (Host.log (broadcastInDim S100000x1 ![0] bcast_S100000_S100000x1_0
          (Host.reduceAdd (Host.exp s) (constant (F := Ideal) S_ .f32 0x00000000#32) reducesTo_S100000x40_S100000_d1 h_S_))) (ix2 r q)
      = Ideal.log (∑ k : Fin 40, Ideal.exp (s (ix2 r k))) := by
  refine (colOut_apply _ r q).trans ?_
  refine (hostLog_apply _ _).trans ?_
  exact congrArg Ideal.log ((colIn_apply _ r 0).trans ((rowSumH_apply (Host.exp s) r).trans
    (Finset.sum_congr rfl fun k _ => hostExp_apply s (ix2 r k))))

private theorem logSoftmaxH_apply (z : FVec Ideal S100000x40 .f32) (r : Fin 100000) (q : Fin 40) :
    logSoftmaxH (F := Ideal) z (ix2 r q) = Cert.Spec.logSoftmaxRow (fun k => z (ix2 r k)) q := by
  refine (congrFun (logSoftmaxH_split z) (ix2 r q)).trans ?_
  refine (subf_apply _ _ (ix2 r q)).trans ?_
  rw [shiftedH_apply z r q, normaliserH_apply (shiftedH z) r q]
  unfold Cert.Spec.logSoftmaxRow
  exact congrArg (fun t : EReal => _ - Ideal.log t)
    (Finset.sum_congr rfl fun k _ => congrArg Ideal.exp (shiftedH_apply z r k))

/-! ## The logits on the host, read at an index -/

/-! The operand indices of the product at output index `i` and contraction index `c`, axis by axis. -/

private theorem lhs_ro_0 (i : S100000x40.Idx) (c : dot_S100000x256_S256x40_S100000x40_1_0_0_1_n_n.contr.Idx) :
    (dot_S100000x256_S256x40_S100000x40_1_0_0_1_n_n.lhsIdx i c 0).val = (i 0).val := by
  unfold DotDims.lhsIdx
  rw [dif_neg (show ¬(0 : Fin S100000x256.rank) ∈ dot_S100000x256_S256x40_S100000x40_1_0_0_1_n_n.lhsBatch by decide), dif_pos (show (0 : Fin S100000x256.rank) ∈ dot_S100000x256_S256x40_S100000x40_1_0_0_1_n_n.lhsNonContracting by decide)]
  rfl
private theorem lhs_ro_1 (i : S100000x40.Idx) (c : dot_S100000x256_S256x40_S100000x40_1_0_0_1_n_n.contr.Idx) :
    (dot_S100000x256_S256x40_S100000x40_1_0_0_1_n_n.lhsIdx i c 1).val = (c ⟨0, by decide⟩).val :=
  dot_S100000x256_S256x40_S100000x40_1_0_0_1_n_n.lhsIdx_val_of_single rfl i c
private theorem rhs_ro_0 (i : S100000x40.Idx) (c : dot_S100000x256_S256x40_S100000x40_1_0_0_1_n_n.contr.Idx) :
    (dot_S100000x256_S256x40_S100000x40_1_0_0_1_n_n.rhsIdx i c 0).val = (c ⟨0, by decide⟩).val :=
  dot_S100000x256_S256x40_S100000x40_1_0_0_1_n_n.rhsIdx_val_of_single rfl i c
private theorem rhs_ro_1 (i : S100000x40.Idx) (c : dot_S100000x256_S256x40_S100000x40_1_0_0_1_n_n.contr.Idx) :
    (dot_S100000x256_S256x40_S100000x40_1_0_0_1_n_n.rhsIdx i c 1).val = (i 1).val := by
  unfold DotDims.rhsIdx
  rw [dif_neg (show ¬(1 : Fin S256x40.rank) ∈ dot_S100000x256_S256x40_S100000x40_1_0_0_1_n_n.rhsBatch by decide), dif_pos (show (1 : Fin S256x40.rank) ∈ dot_S100000x256_S256x40_S100000x40_1_0_0_1_n_n.rhsNonContracting by decide)]
  rfl

/-- The host's product read at `(r, q)`: row `r` of the left operand against column `q` of the right. -/
private theorem productH_apply (x : FVec Ideal S100000x256 .f32) (W : FVec Ideal S256x40 .f32) (r : Fin 100000) (q : Fin 40) :
    Host.dotGeneral dot_S100000x256_S256x40_S100000x40_1_0_0_1_n_n none x W (ix2 r q)
      = ∑ k : Fin 256, x (ix2 r k) * W (ix2 k q) := by
  refine (Ideal.dotGeneral_apply dot_S100000x256_S256x40_S100000x40_1_0_0_1_n_n none .single x W (ix2 r q)).trans ?_
  rw [← Equiv.sum_comp (contrEquiv1 dot_S100000x256_S256x40_S100000x40_1_0_0_1_n_n 256 rfl rfl).symm]
  refine Finset.sum_congr rfl fun k _ => ?_
  have hk := contrEquiv1_symm_val dot_S100000x256_S256x40_S100000x40_1_0_0_1_n_n 256 rfl rfl k
  have el : dot_S100000x256_S256x40_S100000x40_1_0_0_1_n_n.lhsIdx (ix2 r q) ((contrEquiv1 dot_S100000x256_S256x40_S100000x40_1_0_0_1_n_n 256 rfl rfl).symm k) = ix2 r k := funext fun a => Fin.ext (by
    match a with
    | ⟨0, _⟩ => exact lhs_ro_0 _ _
    | ⟨1, _⟩ => exact (lhs_ro_1 _ _).trans hk)
  have er : dot_S100000x256_S256x40_S100000x40_1_0_0_1_n_n.rhsIdx (ix2 r q) ((contrEquiv1 dot_S100000x256_S256x40_S100000x40_1_0_0_1_n_n 256 rfl rfl).symm k) = ix2 k q := funext fun a => Fin.ext (by
    match a with
    | ⟨0, _⟩ => exact (rhs_ro_0 _ _).trans hk
    | ⟨1, _⟩ => exact rhs_ro_1 _ _)
  rw [el, er]

/-- A sum over 256 terms is the sum of its first 128 and of its last 128. -/
private theorem sum_halves (f : Fin 256 → EReal) :
    ∑ k : Fin 256, f k
      = ∑ k : Fin 128, f ⟨k.val, by omega⟩ + ∑ k : Fin 128, f ⟨128 + k.val, by omega⟩ :=
  Fin.sum_univ_add (a := 128) (b := 128) f

/-- The concatenation `[y1 | y2]` read in its left half. -/
private theorem concat_left (y1 y2 : FVec Ideal S100000x128 .f32) (r : Fin 100000) (k : Fin 128) :
    concatenate S100000x256 1 [⟨S100000x128, y1⟩, ⟨S100000x128, y2⟩] concatenates_S100000x128_S100000x128_S100000x256_d1
        (ix2 r (⟨k.val, by omega⟩ : Fin 256)) = y1 (ix2 r k) :=
  concatenate_pair_apply_left 1 y1 y2 concatenates_S100000x128_S100000x128_S100000x256_d1 _ rfl (ix2 r k)
    (fun b => match b with
      | ⟨0, _⟩ => rfl
      | ⟨1, _⟩ => rfl)

/-- The concatenation `[y1 | y2]` read in its right half. -/
private theorem concat_right (y1 y2 : FVec Ideal S100000x128 .f32) (r : Fin 100000) (k : Fin 128) :
    concatenate S100000x256 1 [⟨S100000x128, y1⟩, ⟨S100000x128, y2⟩] concatenates_S100000x128_S100000x128_S100000x256_d1
        (ix2 r (⟨128 + k.val, by omega⟩ : Fin 256)) = y2 (ix2 r k) :=
  concatenate_pair_apply_right 1 y1 y2 concatenates_S100000x128_S100000x128_S100000x256_d1 _ rfl rfl (ix2 r k)
    (fun b => match b with
      | ⟨0, _⟩ => fun _ => rfl
      | ⟨1, _⟩ => fun h => absurd rfl h)
    (Nat.add_comm k.val 128)

/-- The bias laid along every row, read at `(r, q)`. -/
private theorem biasH_apply (b : FVec Ideal S40 .f32) (r : Fin 100000) (q : Fin 40) :
    broadcastInDim S100000x40 ![0, 1] bcast_S1x40_S100000x40_0_1 (broadcastInDim S1x40 ![1] bcast_S40_S1x40_1 b) (ix2 r q)
      = b (ix1 q) :=
  (broadcastInDim_apply _ bcast_S1x40_S100000x40_0_1 _ (ix2 r q) (ix2 (0 : Fin 1) q) (fun a => match a with
      | ⟨0, _⟩ => by show 0 = if (1 : Nat) = 1 then 0 else r.val; rw [if_pos rfl]
      | ⟨1, _⟩ => by show q.val = if (40 : Nat) = 1 then 0 else q.val; rw [if_neg (by decide)])).trans
    (broadcastInDim_apply _ bcast_S40_S1x40_1 b (ix2 (0 : Fin 1) q) (ix1 q) (fun a => match a with
      | ⟨0, _⟩ => by show q.val = if (40 : Nat) = 1 then 0 else q.val; rw [if_neg (by decide)]))

private theorem logitsH_apply (y1 y2 : FVec Ideal S100000x128 .f32) (W : FVec Ideal S256x40 .f32) (b : FVec Ideal S40 .f32)
    (h0 : S256x40.Slices ![0, 0] (⟨2, ![128, 40]⟩ : Shape)) (h1 : S256x40.Slices ![128, 0] (⟨2, ![128, 40]⟩ : Shape))
    (r : Fin 100000) (q : Fin 40) :
    logitsH (F := Ideal) y1 y2 W b (ix2 r q)
      = Cert.Spec.logitsRow (fun k => y1 (ix2 r k)) (fun k => y2 (ix2 r k))
          (extractStridedSlice (⟨2, ![128, 40]⟩ : Shape) ![0, 0] W h0)
          (extractStridedSlice (⟨2, ![128, 40]⟩ : Shape) ![128, 0] W h1) b q := by
  unfold logitsH Cert.Spec.logitsRow
  refine (addf_apply _ _ (ix2 r q)).trans ?_
  rw [productH_apply, biasH_apply, sum_halves]
  refine congrArg (fun t : EReal => t + b (ix1 q))
    (congrArg₂ (fun s t : EReal => s + t) (Finset.sum_congr rfl fun k _ => ?_) (Finset.sum_congr rfl fun k _ => ?_))
  · rw [concat_left y1 y2 r k]
    exact congrArg (fun t : EReal => y1 (ix2 r k) * t)
      (slice2_axis0_apply 0 W h0 k q ⟨k.val, by omega⟩ (Nat.zero_add _).symm).symm
  · rw [concat_right y1 y2 r k]
    exact congrArg (fun t : EReal => y2 (ix2 r k) * t)
      (slice2_axis0_apply 128 W h1 k q ⟨128 + k.val, by omega⟩ rfl).symm

/-- The host's read-out on any operands is the read-out function over the two row-halves of the weight matrix. -/
theorem host_readout (y1 y2 : FVec Ideal S100000x128 .f32) (W : FVec Ideal S256x40 .f32) (b : FVec Ideal S40 .f32)
    (h0 : S256x40.Slices ![0, 0] (⟨2, ![128, 40]⟩ : Shape)) (h1 : S256x40.Slices ![128, 0] (⟨2, ![128, 40]⟩ : Shape)) :
    readoutH (F := Ideal) y1 y2 W b
      = Cert.Spec.readout y1 y2 (extractStridedSlice (⟨2, ![128, 40]⟩ : Shape) ![0, 0] W h0)
          (extractStridedSlice (⟨2, ![128, 40]⟩ : Shape) ![128, 0] W h1) b := by
  funext i
  obtain ⟨r, q, rfl⟩ : ∃ (r : Fin 100000) (q : Fin 40), i = ix2 r q := ⟨i 0, i 1, eq_ix2 i⟩
  unfold readoutH
  refine (logSoftmaxH_apply _ r q).trans ?_
  refine Eq.trans ?_ (Cert.Spec.readout_ix2 y1 y2 _ _ b r q).symm
  exact congrArg (fun z : Fin 40 → EReal => Cert.Spec.logSoftmaxRow z q)
    (funext fun k => logitsH_apply y1 y2 W b h0 h1 r k)

end Cert.ReferenceIdeal.RefValue

end
-- ==== Proof.RefValue.lean ====
/-
  The reference's result as the network of its arguments: the fold of its 68 operations is walked stretch by stretch —
  the read-out from the two layers' outputs, the second layer from the first's output and its aggregate, the first layer
  from the node features and their aggregate — and each host layer and the host read-out is the function of Spec.lean.
-/
import proofs.«163946_j23699629539722_1_alg».proof.Proof.RefChunks
import proofs.«163946_j23699629539722_1_alg».proof.Proof.RefLayer
import proofs.«163946_j23699629539722_1_alg».proof.Proof.RefFinal
import proofs.«163946_j23699629539722_1_alg».proof.Proof.Model

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.RefValue

/-- The result buffer after the reference's operations, from any buffer contents, is the network of the ten argument buffers. -/
theorem result_eq (V : Valuation τ sig (Elt Ideal)) :
    after (ops (F := Ideal)) V (Proc.devRef .tc main_v43)
      = Cert.Model.net (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  rw [ops_split, StableHlo.after_append, StableHlo.after_append, StableHlo.after_append, StableHlo.after_append]
  rw [opsE_main_v43]
  rw [opsD_main_v37, opsD_main_v20, opsD_main_arg8, opsD_main_arg9]
  rw [opsC_main_v30, opsC_main_v20, opsC_main_arg5, opsC_main_arg6, opsC_main_arg7, opsC_main_arg8, opsC_main_arg9]
  rw [opsB_main_v20, opsB_main_v1, opsB_main_v3, opsB_main_arg5, opsB_main_arg6, opsB_main_arg7, opsB_main_arg8, opsB_main_arg9]
  rw [opsA_main_v13, opsA_main_v1, opsA_main_v3, opsA_main_arg0, opsA_main_arg2, opsA_main_arg3, opsA_main_arg4, opsA_main_arg5,
    opsA_main_arg6, opsA_main_arg7, opsA_main_arg8, opsA_main_arg9]
  rw [host_readout _ _ _ _ Cert.Model.slices_upper Cert.Model.slices_lower, host_layer, host_layer]
  rfl

/-- The reference's run with its result named: the network of the launch arguments; the arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = Cert.Model.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (result_eq (launchContents m c)), (h c).2⟩) (run_after m ρ)

end Cert.ReferenceIdeal.RunP

end
-- ==== Proof.lean ====
/-
  The certificate of a two-layer graph-convolution network with a log_softmax read-out.

  The kernel's program computes the neighbour aggregation on the host (a row gather and an accumulating scatter) and
  runs three pipelined kernels: each graph-convolution layer `relu (a · W_rel + x · W_root + b)` on blocks of 5000 rows,
  and the read-out `log_softmax (x1 · W_upper + x2 · W_lower + b)`. The reference computes the same on the host, with the
  bias added between the two products and the read-out as one product of the concatenation [x1 | x2] with the whole
  weight matrix. On the extended reals the two agree: addition is commutative and associative, a sum over 256 indices
  splits into two sums over 128, and the maximum with `-∞` is the identity; no finiteness of the inputs is used. The
  aggregation is the same host operations in both programs and is never opened.

  Both runs are re-posted with the result named as ONE function of the ten argument arrays (`Cert.Model.net`): the
  kernel's from its frame run (the buffer contents at each boundary read backwards through the three regions), the
  reference's from the fold of its operations read stretch by stretch.
-/
import proofs.«163946_j23699629539722_1_alg».proof.Defs
import proofs.«163946_j23699629539722_1_alg».proof.Proof.Gen.Kernel
import proofs.«163946_j23699629539722_1_alg».proof.Proof.Gen.Kernel.Frame
import proofs.«163946_j23699629539722_1_alg».proof.Proof.Gen.KernelIdeal
import proofs.«163946_j23699629539722_1_alg».proof.Proof.Gen.KernelIdeal.Frame
import proofs.«163946_j23699629539722_1_alg».proof.Proof.Gen.ReferenceIdeal
import proofs.«163946_j23699629539722_1_alg».proof.Proof.Gen.Pre_finite_inputs
import proofs.«163946_j23699629539722_1_alg».proof.Proof.KernelRun
import proofs.«163946_j23699629539722_1_alg».proof.Proof.KernelValue
import proofs.«163946_j23699629539722_1_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RunP.run_named m ρ)

/-- From memories agreeing on the arguments both programs end with the network of those arguments in their result buffer. -/
theorem algebraic : Cert.algebraic_KernelIdeal_ReferenceIdeal := by
  intro m ρ m' ρ' _ hagree
  refine ⟨fun c => Cert.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Value.result_eq m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.RunP.run_named m' ρ')
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
